-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x2048x3 : Shape := ⟨3, ![4, 2048, 3]⟩
abbrev S4x1024x1 : Shape := ⟨3, ![4, 1024, 1]⟩
abbrev S4x1024x3 : Shape := ⟨3, ![4, 1024, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_
  bcast_S_S4x1024x1 : S_.BroadcastsInDim S4x1024x1 (![] : Fin 0 → Fin S4x1024x1.rank)
  reducesTo_S4x1024x1_S_d0_1_2 : S4x1024x1.ReducesTo [0, 1, 2] S_
  bcast_S_S4x1024x3 : S_.BroadcastsInDim S4x1024x3 (![] : Fin 0 → Fin S4x1024x3.rank)
  reducesTo_S4x1024x3_S_d0_1_2 : S4x1024x3.ReducesTo [0, 1, 2] S_

variable [Facts]

def fn_part1 {F : FTy → Type} [FloatOps F] (main_arg4 : FVec F S4x1024x3 .f32) (main_v13 : IVec S_ 1) (main_v16 : IVec S4x8192x3 1) : IVec S_ 1 :=
  let main_c_5 : IVec S_ 1 := constantI S_ 1 1#1
  let main_v17 : IVec S_ 1 := (fun x v => Host.reduce IntOp.andi x v reducesTo_S4x8192x3_S_d0_1_2 h_S_) main_v16 main_c_5
  let main_v18 : IVec S_ 1 := andi main_v13 main_v17
  let main_v19 : FVec F S4x1024x3 .f32 := Host.absf main_arg4
  let main_cst_6 : FVec F S_ .f32 := constant S_ .f32 0x7F800000#32
  let main_v20 : FVec F S4x1024x3 .f32 := broadcastInDim S4x1024x3 ![] bcast_S_S4x1024x3 main_cst_6
  let main_v21 : IVec S4x1024x3 1 := cmpf .olt main_v19 main_v20
  let main_c_7 : IVec S_ 1 := constantI S_ 1 1#1
  let main_v22 : IVec S_ 1 := (fun x v => Host.reduce IntOp.andi x v reducesTo_S4x1024x3_S_d0_1_2 h_S_) main_v21 main_c_7
  let main_v23 : IVec S_ 1 := andi main_v18 main_v22
  main_v23

def fn {F : FTy → Type} [FloatOps F] (main_arg0 : FVec F S4x8192x3 .f32) (main_arg1 : FVec F S4x2048x3 .f32) (main_arg2 : FVec F S4x1024x1 .f32) (main_arg3 : FVec F S4x8192x3 .f32) (main_arg4 : FVec F S4x1024x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x2048x3 .f32 := Host.absf main_arg1
  let main_cst_0 : FVec F S_ .f32 := constant S_ .f32 0x7F800000#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  let main_v9 : FVec F S4x1024x1 .f32 := Host.absf main_arg2
  let main_cst_2 : FVec F S_ .f32 := constant S_ .f32 0x7F800000#32
  let main_v10 : FVec F S4x1024x1 .f32 := broadcastInDim S4x1024x1 ![] bcast_S_S4x1024x1 main_cst_2
  let main_v11 : IVec S4x1024x1 1 := cmpf .olt main_v9 main_v10
  let main_c_3 : IVec S_ 1 := constantI S_ 1 1#1
  let main_v12 : IVec S_ 1 := (fun x v => Host.reduce IntOp.andi x v reducesTo_S4x1024x1_S_d0_1_2 h_S_) main_v11 main_c_3
  let main_v13 : IVec S_ 1 := andi main_v8 main_v12
  let main_v14 : FVec F S4x8192x3 .f32 := Host.absf main_arg3
  let main_cst_4 : FVec F S_ .f32 := constant S_ .f32 0x7F800000#32
  let main_v15 : FVec F S4x8192x3 .f32 := broadcastInDim S4x8192x3 ![] bcast_S_S4x8192x3 main_cst_4
  let main_v16 : IVec S4x8192x3 1 := cmpf .olt main_v14 main_v15
  fn_part1 (F := F) main_arg4 main_v13 main_v16
-- ==== Kernel.lean ====
abbrev S4x8192x3 : Shape := ⟨3, ![4, 8192, 3]⟩
abbrev S4x2048x3 : Shape := ⟨3, ![4, 2048, 3]⟩
abbrev S4x1024x1 : Shape := ⟨3, ![4, 1024, 1]⟩
abbrev S4x1024x3 : Shape := ⟨3, ![4, 1024, 3]⟩
abbrev S4x1024 : Shape := ⟨2, ![4, 1024]⟩
abbrev S4x512x3 : Shape := ⟨3, ![4, 512, 3]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩
abbrev S_ : Shape := ⟨0, ![]⟩
abbrev S4x8192 : Shape := ⟨2, ![4, 8192]⟩

abbrev nBuf : Space → Nat
  | .hbm => 42
  | .vmem => 18
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x1024x1, .f32⟩
  | .hbm, ⟨3, _⟩ => ⟨S4x8192x3, .f32⟩
  | .hbm, ⟨4, _⟩ => ⟨S4x1024x3, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024x1, .f32⟩
  | .hbm, ⟨10, _⟩ => ⟨S4x1024x1, .f32⟩
  | .hbm, ⟨11, _⟩ => ⟨S4x1024x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512x3, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512, .f32⟩
  | .local _ .vmem, ⟨11, _⟩ => ⟨S4x512, .f32⟩
  | .local _ .vmem, ⟨12, _⟩ => ⟨S4x512x3, .f32⟩
  | .local _ .vmem, ⟨13, _⟩ => ⟨S4x512x3, .f32⟩
  | .local _ .vmem, ⟨14, _⟩ => ⟨S4x512x3, .f32⟩
  | .local _ .vmem, ⟨15, _⟩ => ⟨S4x512x3, .f32⟩
  | .local _ .vmem, ⟨16, _⟩ => ⟨S4x512, .f32⟩
  | .local _ .vmem, ⟨17, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_cst_9 : Ref sig .tc := ⟨.hbm, 36, rfl⟩
abbrev main_v21 : Ref sig .tc := ⟨.hbm, 37, rfl⟩
abbrev main_cst_10 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S4x512x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4x512x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S4x512_S4x512_0_0 : ∀ a, (![0, 0] : Fin 2 → Nat) a + S4x512.size a ≤ S4x512.size a
  h_S4x512 : 0 < S4x512.numel
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  shapeCasts_S4x512_S4x512 : S4x512.ShapeCasts S4x512
  bcast_S4x1024_S4x1024x1_0_1 : S4x1024.BroadcastsInDim S4x1024x1 (![0, 1] : Fin 2 → Fin S4x1024x1.rank)
  reducesTo_S4x1024x1_S_d0_1_2 : S4x1024x1.ReducesTo [0, 1, 2] S_
  h_S_ : 0 < S_.numel
  reducesTo_S4x8192_S_d0_1 : S4x8192.ReducesTo [0, 1] S_
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x1024x3.size a
  hwx0_0 : ∀ i : grid0.Coords, EltTy.bits .f32 = 32 ∨ (Rect.block (s := S4x1024x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x1024.size a
  hwx0_2 : ∀ i : grid0.Coords, EltTy.bits .f32 = 32 ∨ (Rect.block (s := S4x1024) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x512x3.size a ≤ S4x8192x3.size a
  hwx2_0 : ∀ i : grid2.Coords, EltTy.bits .f32 = 32 ∨ (Rect.block (s := S4x8192x3) S4x512x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x512x3.size a ≤ S4x8192x3.size a
  hwx2_1 : ∀ i : grid2.Coords, EltTy.bits .f32 = 32 ∨ (Rect.block (s := S4x8192x3) S4x512x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x512.size a ≤ S4x8192.size a
  hwx2_2 : ∀ i : grid2.Coords, EltTy.bits .f32 = 32 ∨ (Rect.block (s := S4x8192) S4x512.size (cc2_transform_2 i) (hinb2_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg4) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S4x512x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4x512x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x8192x3 : Shape := ⟨3, ![4, 8192, 3]⟩
abbrev S4x2048x3 : Shape := ⟨3, ![4, 2048, 3]⟩
abbrev S4x1024x1 : Shape := ⟨3, ![4, 1024, 1]⟩
abbrev S4x1024x3 : Shape := ⟨3, ![4, 1024, 3]⟩
abbrev S_ : Shape := ⟨0, ![]⟩
abbrev S4x1024 : Shape := ⟨2, ![4, 1024]⟩
abbrev S4x8192 : Shape := ⟨2, ![4, 8192]⟩
abbrev S4x1x8192 : Shape := ⟨3, ![4, 1, 8192]⟩
abbrev S4x1024x8192 : Shape := ⟨3, ![4, 1024, 8192]⟩
abbrev S4x8192x1 : Shape := ⟨3, ![4, 8192, 1]⟩
abbrev S4x8192x8192 : Shape := ⟨3, ![4, 8192, 8192]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x1024x1, .f32⟩
  | .hbm, ⟨3, _⟩ => ⟨S4x8192x3, .f32⟩
  | .hbm, ⟨4, _⟩ => ⟨S4x1024x3, .f32⟩
  | .hbm, ⟨5, _⟩ => ⟨S4x1024x3, .f32⟩
  | .hbm, ⟨6, _⟩ => ⟨S_, .f32⟩
  | .hbm, ⟨7, _⟩ => ⟨S4x1024, .f32⟩
  | .hbm, ⟨8, _⟩ => ⟨S4x1024x1, .f32⟩
  | .hbm, ⟨9, _⟩ => ⟨S4x8192x3, .f32⟩
  | .hbm, ⟨10, _⟩ => ⟨S_, .f32⟩
  | .hbm, ⟨11, _⟩ => ⟨S4x8192, .f32⟩
  | .hbm, ⟨12, _⟩ => ⟨S4x1x8192, .f32⟩
  | .hbm, ⟨13, _⟩ => ⟨S4x1024x8192, .f32⟩
  | .hbm, ⟨14, _⟩ => ⟨S4x1024x8192, .f32⟩
  | .hbm, ⟨15, _⟩ => ⟨S4x1024x8192, .f32⟩
  | .hbm, ⟨16, _⟩ => ⟨S4x1024x8192, .f32⟩
  | .hbm, ⟨17, _⟩ => ⟨S_, .f32⟩
  | .hbm, ⟨18, _⟩ => ⟨S4x1024x8192, .f32⟩
  | .hbm, ⟨19, _⟩ => ⟨S4x1024x8192, .f32⟩
  | .hbm, ⟨20, _⟩ => ⟨S4x1024x8192, .f32⟩
  | .hbm, ⟨21, _⟩ => ⟨S_, .f32⟩
  | .hbm, ⟨22, _⟩ => ⟨S4x1024x8192, .f32⟩
  | .hbm, ⟨23, _⟩ => ⟨S4x1024x8192, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S4x1024x1, .f32⟩
  | .hbm, ⟨30, _⟩ => ⟨S4x1024x1, .f32⟩
  | .hbm, ⟨31, _⟩ => ⟨S4x1024x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x8192x3, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x3, .f32⟩
  | .hbm, ⟨41, _⟩ => ⟨S_, .f32⟩
  | .hbm, ⟨42, _⟩ => ⟨S4x8192, .f32⟩
  | .hbm, ⟨43, _⟩ => ⟨S4x1x8192, .f32⟩
  | .hbm, ⟨44, _⟩ => ⟨S4x8192x8192, .f32⟩
  | .hbm, ⟨45, _⟩ => ⟨S4x8192x8192, .f32⟩
  | .hbm, ⟨46, _⟩ => ⟨S4x8192x8192, .f32⟩
  | .hbm, ⟨47, _⟩ => ⟨S4x8192x8192, .f32⟩
  | .hbm, ⟨48, _⟩ => ⟨S_, .f32⟩
  | .hbm, ⟨49, _⟩ => ⟨S4x8192x8192, .f32⟩
  | .hbm, ⟨50, _⟩ => ⟨S4x8192x8192, .f32⟩
  | .hbm, ⟨51, _⟩ => ⟨S4x8192x8192, .f32⟩
  | .hbm, ⟨52, _⟩ => ⟨S_, .f32⟩
  | .hbm, ⟨53, _⟩ => ⟨S4x8192x8192, .f32⟩
  | .hbm, ⟨54, _⟩ => ⟨S4x8192x8192, .f32⟩
  | .hbm, ⟨55, _⟩ => ⟨S_, .f32⟩
  | .hbm, ⟨56, _⟩ => ⟨S4x8192, .f32⟩
  | .hbm, ⟨57, _⟩ => ⟨S_, .f32⟩
  | .hbm, ⟨58, _⟩ => ⟨S4x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4x8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_cst_15 : Ref sig .tc := ⟨.hbm, 65, rfl⟩
abbrev main_v44 : Ref sig .tc := ⟨.hbm, 66, rfl⟩
abbrev main_cst_16 : Ref sig .tc := ⟨.hbm, 67, rfl⟩
abbrev main_v45 : Ref sig .tc := ⟨.hbm, 68, rfl⟩
abbrev main_cst_17 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_18 : Ref sig .tc := ⟨.hbm, 73, rfl⟩
abbrev main_v49 : Ref sig .tc := ⟨.hbm, 74, rfl⟩
abbrev main_cst_19 : Ref sig .tc := ⟨.hbm, 75, rfl⟩
abbrev main_v50 : Ref sig .tc := ⟨.hbm, 76, rfl⟩
abbrev main_cst_20 : Ref sig .tc := ⟨.hbm, 77, rfl⟩
abbrev main_v51 : Ref sig .tc := ⟨.hbm, 78, rfl⟩
abbrev main_cst_21 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]

class Facts₀ : Prop where
  reducesTo_S4x1024x3_S4x1024_d2 : S4x1024x3.ReducesTo [2] S4x1024
  h_S_ : 0 < S_.numel
  bcast_S4x1024_S4x1024x1_0_1 : S4x1024.BroadcastsInDim S4x1024x1 (![0, 1] : Fin 2 → Fin S4x1024x1.rank)
  reducesTo_S4x8192x3_S4x8192_d2 : S4x8192x3.ReducesTo [2] S4x8192
  bcast_S4x8192_S4x1x8192_0_2 : S4x8192.BroadcastsInDim S4x1x8192 (![0, 2] : Fin 2 → Fin S4x1x8192.rank)
  bcast_S4x1024x1_S4x1024x8192_0_1_2 : S4x1024x1.BroadcastsInDim S4x1024x8192 (![0, 1, 2] : Fin 3 → Fin S4x1024x8192.rank)
  bcast_S4x1x8192_S4x1024x8192_0_1_2 : S4x1x8192.BroadcastsInDim S4x1024x8192 (![0, 1, 2] : Fin 3 → Fin S4x1024x8192.rank)
  bcast_S_S4x1024x8192 : S_.BroadcastsInDim S4x1024x8192 (![] : Fin 0 → Fin S4x1024x8192.rank)
  reducesTo_S4x1024x8192_S4x1024_d2 : S4x1024x8192.ReducesTo [2] S4x1024
  reducesTo_S4x1024x1_S_d0_1_2 : S4x1024x1.ReducesTo [0, 1, 2] S_
  bcast_S4x8192_S4x8192x1_0_1 : S4x8192.BroadcastsInDim S4x8192x1 (![0, 1] : Fin 2 → Fin S4x8192x1.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x1024x3_S4x8192x3_S4x1024x8192_2_2_1_1_0_0_wf : DotDims.WF S4x1024x3 S4x8192x3 S4x1024x8192 [2] [2] [1] [1] [0] [0]
  dot_S4x8192x3_S4x8192x3_S4x8192x8192_2_2_1_1_0_0_wf : DotDims.WF S4x8192x3 S4x8192x3 S4x8192x8192 [2] [2] [1] [1] [0] [0]

variable [Facts₀]

def dot_S4x1024x3_S4x8192x3_S4x1024x8192_2_2_1_1_0_0 : DotDims S4x1024x3 S4x8192x3 S4x1024x8192 where
  lhsContracting := [2]
  rhsContracting := [2]
  lhsNonContracting := [1]
  rhsNonContracting := [1]
  lhsBatch := [0]
  rhsBatch := [0]
  wf := dot_S4x1024x3_S4x8192x3_S4x1024x8192_2_2_1_1_0_0_wf
def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics both programs compute, stated once over literal shapes and with no program in sight.

  For point clouds Q : [4, N, 3] and D : [4, M, 3] (batch, point, coordinate), every entry an extended real:

    sqd Q D b n m   = max ((|Q[b,n]|² + |D[b,m]|²) − 2 · ⟨Q[b,n], D[b,m]⟩) 0,
                      with |·|² and ⟨·,·⟩ the three-term sums over the coordinate, and 2 the f32 word of 2.0;
    minDist Q D     = the array [4, N] whose entry (b, n) is the minimum over m of sqd Q D b n m, folded from +∞
                      (the f32 word 0x7F800000, kept as a word: it is never evaluated).

  A minimum is carried by its universal property: x ≤ minDist Q D (b, n) exactly when x ≤ +∞ and x ≤ every
  sqd Q D b n m (le_minDist_iff).  Two laws are all the certificate needs of the extended reals, and neither asks for
  finiteness: a running minimum taken tile by tile (512 database points at a time) has the same universal property as
  the minimum over all tiles seen so far (le_min_tile_iff: only that min is the meet of a linear order), and the squared
  distance is symmetric in its two clouds (sqd_swap: commutativity of + and · alone).

  lossOf is the scalar both programs finish with, as one function of the three nearest-neighbour arrays A : [4, 1024],
  B, C : [4, 8192] and the confidences: ½ · (½ · mean B + 2 · mean C) + ½ · mean ((conf − exp (−√A))²) + mean √B, each
  mean a host sum divided by the literal count.  It is never opened: both sides are shown to be lossOf of equal arrays.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Chamfer

/-- The f32 word of +∞ read at the ideal values (the fold's starting value on both sides; never evaluated). -/
abbrev pinf : EReal := Ideal.ofBits .f32 0x7F800000#32
/-- The f32 word of 2.0 read at the ideal values (the same word on both sides; never evaluated). -/
abbrev two : EReal := Ideal.ofBits .f32 0x40000000#32

/-- A cloud of N points in each of 4 batches: [4, N, 3]. -/
abbrev Pts (N : Nat) : Type := (⟨3, ![4, N, 3]⟩ : Shape).Idx → EReal
/-- One value per point: [4, N]. -/
abbrev Rows (N : Nat) : Type := (⟨2, ![4, N]⟩ : Shape).Idx → EReal

/-- The clamped squared distance between point n of Q and point m of D in batch b, as both programs spell it:
    (|q|² + |d|²) − 2 ⟨q, d⟩, clamped below at 0. -/
def sqd {N M : Nat} (Q : Pts N) (D : Pts M) (b : Fin 4) (n : Fin N) (m : Fin M) : EReal :=
  max (((∑ k : Fin 3, Q (ix3 b n k) * Q (ix3 b n k)) + (∑ k : Fin 3, D (ix3 b m k) * D (ix3 b m k)))
        - two * (∑ k : Fin 3, Q (ix3 b n k) * D (ix3 b m k))) 0

/-- For every point of Q, the least clamped squared distance to a point of D (a fold of min from +∞). -/
def minDist {N M : Nat} (Q : Pts N) (D : Pts M) : Rows N :=
  fun i => (Finset.univ : Finset (Fin M)).fold min pinf (fun m => sqd Q D (i 0) (i 1) m)

/-- The universal property of the row minimum. -/
theorem le_minDist_iff {N M : Nat} (Q : Pts N) (D : Pts M) (i : (⟨2, ![4, N]⟩ : Shape).Idx) (x : EReal) :
    x ≤ minDist Q D i ↔ x ≤ pinf ∧ ∀ m : Fin M, x ≤ sqd Q D (i 0) (i 1) m := by
  unfold minDist
  rw [Finset.le_fold_min]
  exact ⟨fun h => ⟨h.1, fun m => h.2 m (Finset.mem_univ _)⟩, fun h => ⟨h.1, fun m _ => h.2 m⟩⟩

/-- Two arrays with the same universal property at every entry are equal. -/
theorem rows_ext_of_le_iff {N : Nat} (R R' : Rows N)
    (h : ∀ (i : (⟨2, ![4, N]⟩ : Shape).Idx) (x : EReal), x ≤ R i ↔ x ≤ R' i) : R = R' :=
  funext fun i => eq_of_forall_le_iff (h i)

/-- ONE TILE MORE. If a is the minimum (from +∞) of f over the first 512·J indices, then min a (the minimum from +∞ of f
    over the next 512) is the minimum of f over the first 512·(J+1): stated by universal properties, so that nothing is
    said about how either minimum is computed. -/
theorem le_min_tile_iff {M : Nat} (f : Fin M → EReal) (x a : EReal) (J : ℕ) (hJ : 512 * (J + 1) ≤ M)
    (ha : x ≤ a ↔ x ≤ pinf ∧ ∀ m : Fin M, m.val < 512 * J → x ≤ f m) :
    x ≤ min a ((Finset.univ : Finset (Fin 512)).fold min pinf
        (fun m' => f ⟨512 * J + m'.val, by have := m'.isLt; omega⟩))
      ↔ x ≤ pinf ∧ ∀ m : Fin M, m.val < 512 * (J + 1) → x ≤ f m := by
  rw [le_min_iff, ha, Finset.le_fold_min]
  constructor
  · rintro ⟨⟨hp, h1⟩, -, h2⟩
    refine ⟨hp, fun m hm => ?_⟩
    by_cases h : m.val < 512 * J
    · exact h1 m h
    · have h3 := h2 ⟨m.val - 512 * J, by omega⟩ (Finset.mem_univ _)
      have e : (⟨512 * J + (m.val - 512 * J), by omega⟩ : Fin M) = m := Fin.ext (by show 512 * J + (m.val - 512 * J) = m.val; omega)
      rw [e] at h3
      exact h3
  · rintro ⟨hp, h⟩
    exact ⟨⟨hp, fun m hm => h m (by omega)⟩, hp, fun m' _ => h _ (by show 512 * J + m'.val < 512 * (J + 1); have := m'.isLt; omega)⟩

/-- Before any tile: +∞ is the minimum over no index at all. -/
theorem le_pinf_iff_none {M : Nat} (f : Fin M → EReal) (x : EReal) :
    x ≤ pinf ↔ x ≤ pinf ∧ ∀ m : Fin M, m.val < 512 * 0 → x ≤ f m :=
  ⟨fun h => ⟨h, fun m hm => absurd hm (by omega)⟩, fun h => h.1⟩

/-- The squared distance does not care which cloud is called the query: + and · commute on the extended reals. -/
theorem sqd_swap {N M : Nat} (Q : Pts N) (D : Pts M) (b : Fin 4) (n : Fin N) (m : Fin M) :
    sqd Q D b n m = sqd D Q b m n := by
  unfold sqd
  rw [add_comm (∑ k : Fin 3, Q (ix3 b n k) * Q (ix3 b n k))]
  refine congrArg (fun s => max ((_ + _) - two * s) 0) (Finset.sum_congr rfl fun k _ => mul_comm _ _)

/-- Minimising over the OTHER axis of the full distance table: entry (b, m) is the least, over n, of the distance from
    point n of Q to point m of D — which is minDist with the clouds' roles exchanged. -/
theorem le_minDist_swap_iff {N M : Nat} (Q : Pts N) (D : Pts M) (i : (⟨2, ![4, M]⟩ : Shape).Idx) (x : EReal) :
    x ≤ minDist D Q i ↔ x ≤ pinf ∧ ∀ n : Fin N, x ≤ sqd Q D (i 0) n (i 1) := by
  rw [le_minDist_iff]
  exact ⟨fun h => ⟨h.1, fun n => (sqd_swap Q D (i 0) n (i 1)) ▸ h.2 n⟩, fun h => ⟨h.1, fun n => (sqd_swap Q D (i 0) n (i 1)) ▸ h.2 n⟩⟩

/-- The scalar both programs return, as ONE function of the three nearest-neighbour arrays and the confidences: the
    host operations after the last kernel, in the order both programs print them. The shape facts are arguments (each
    program states its own; any two proofs of one are equal). -/
def lossOf (hb : (⟨2, ![4, 1024]⟩ : Shape).BroadcastsInDim ⟨3, ![4, 1024, 1]⟩ (![0, 1] : Fin 2 → Fin 3))
    (hr3 : (⟨3, ![4, 1024, 1]⟩ : Shape).ReducesTo [0, 1, 2] ⟨0, ![]⟩)
    (hr2 : (⟨2, ![4, 8192]⟩ : Shape).ReducesTo [0, 1] ⟨0, ![]⟩) (h0 : 0 < (⟨0, ![]⟩ : Shape).numel)
    (A : Rows 1024) (B C : Rows 8192) (conf : (⟨3, ![4, 1024, 1]⟩ : Shape).Idx → EReal) :
    (⟨0, ![]⟩ : Shape).Idx → EReal :=
  let S0 : Shape := ⟨0, ![]⟩
  let half : FVec Ideal S0 .f32 := constant (F := Ideal) S0 .f32 0x3F000000#32
  let meanB : FVec Ideal S0 .f32 := Host.divf (F := Ideal) (Host.reduceAdd (F := Ideal) B (constant (F := Ideal) S0 .f32 0x00000000#32) hr2 h0) (constant (F := Ideal) S0 .f32 0x47000000#32)
  let meanC : FVec Ideal S0 .f32 := Host.divf (F := Ideal) (Host.reduceAdd (F := Ideal) C (constant (F := Ideal) S0 .f32 0x00000000#32) hr2 h0) (constant (F := Ideal) S0 .f32 0x47000000#32)
  let score : FVec Ideal ⟨3, ![4, 1024, 1]⟩ .f32 :=
    subf (F := Ideal) conf (broadcastInDim ⟨3, ![4, 1024, 1]⟩ ![0, 1] hb (Host.exp (F := Ideal) (Host.negf (F := Ideal) (Host.sqrt (F := Ideal) A))))
  let meanS : FVec Ideal S0 .f32 := Host.divf (F := Ideal) (Host.reduceAdd (F := Ideal) (mulf (F := Ideal) score score) (constant (F := Ideal) S0 .f32 0x00000000#32) hr3 h0) (constant (F := Ideal) S0 .f32 0x45800000#32)
  let meanR : FVec Ideal S0 .f32 := Host.divf (F := Ideal) (Host.reduceAdd (F := Ideal) (Host.sqrt (F := Ideal) B) (constant (F := Ideal) S0 .f32 0x00000000#32) hr2 h0) (constant (F := Ideal) S0 .f32 0x47000000#32)
  addf (F := Ideal) (addf (F := Ideal) (mulf (F := Ideal) half (addf (F := Ideal) (mulf (F := Ideal) half meanB) (mulf (F := Ideal) (constant (F := Ideal) S0 .f32 0x40000000#32) meanC)))
    (mulf (F := Ideal) half meanS)) meanR

end Cert.Chamfer

end
-- ==== Proof.Payload.lean ====
/-
  The kernel body's two stored values, read at one entry, at the ideal values.
-/
import proofs.«167739_j15960098472629_1_alg».proof.Proof.Spec
import proofs.«167739_j15960098472629_1_alg».proof.Proof.Gen.KernelIdeal.Skeleton
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.Chamfer.Payload

open Cert.Chamfer Cert.KernelIdeal Cert.KernelIdeal.Gen

/-- The sum over the last axis of a [4,512,3] block, at (b, r): the three-term sum. -/
private theorem sum_last_apply (x : FVec Ideal S4x512x3 .f32) (h : S4x512x3.Reduces [2] S4x512)
    (hφ : FKind.Formats .f32) (hacc : (0x00000000#32 : BitVec 32) = FKind.add.neutral .f32 hφ) (b : Fin 4) (r : Fin 512) :
    multiReduction (F := Ideal) .add [2] S4x512 x 0x00000000#32 h hφ hacc (ix2 b r) = ∑ k : Fin 3, x (ix3 b r k) := by
  refine (Ideal.multiReduction_add_single x _ h hφ hacc (ix2 b r)).trans ?_
  show ∑ k : Fin 3, x (h.lift (ix2 b r) k) = _
  refine Finset.sum_congr rfl fun k _ => congrArg x ?_
  funext a
  apply Fin.ext
  match a with
  | ⟨0, _⟩ => rfl
  | ⟨1, _⟩ => rfl
  | ⟨2, _⟩ => rfl

/-- The minimum over the last axis of a [4,512,512] block, at (b, r): the fold of min from +∞ over the 512 columns. -/
private theorem min_last_apply (x : FVec Ideal S4x512x512 .f32) (h : S4x512x512.Reduces [2] S4x512)
    (hφ : FKind.Formats .f32) (hacc : (0x7F800000#32 : BitVec 32) = FKind.minimumf.neutral .f32 hφ) (b : Fin 4) (r : Fin 512) :
    multiReduction (F := Ideal) .minimumf [2] S4x512 x 0x7F800000#32 h hφ hacc (ix2 b r)
      = (Finset.univ : Finset (Fin 512)).fold min pinf (fun m => x (ix3 b r m)) := by
  refine (multiReduction_minimumf_eq_fold (F := Ideal) x _ h hφ hacc (ix2 b r)).trans ?_
  refine (h.fold_filter_drop_single _ _ x (ix2 b r)).trans ?_
  show (Finset.univ : Finset (Fin 512)).fold min pinf (x ∘ h.lift (ix2 b r)) = _
  refine congrArg (fun f => Finset.fold min pinf f Finset.univ) (funext fun m => congrArg x ?_)
  funext a
  apply Fin.ext
  match a with
  | ⟨0, _⟩ => rfl
  | ⟨1, _⟩ => rfl
  | ⟨2, _⟩ => rfl

/-- A [4,512] array reshaped to [4,512,1], at (b, r, 0): the entry (b, r). -/
private theorem cast_col_apply {α : Type} (x : S4x512.Idx → α) (h : S4x512.ShapeCasts S4x512x1) (b : Fin 4) (r : Fin 512) (z : Fin 1) :
    shapeCast S4x512x1 x h (ix3 b r z) = x (ix2 b r) := by
  refine shapeCast_apply x h (ix3 b r z) (ix2 b r) ?_
  rw [Shape.rowMajor_val_two, Shape.rowMajor_val_three]
  show b.val * 512 + r.val = (b.val * 512 + r.val) * 1 + z.val
  have := z.isLt
  omega

/-- A [4,512] array reshaped to [4,1,512], at (b, 0, m): the entry (b, m). -/
private theorem cast_row_apply {α : Type} (x : S4x512.Idx → α) (h : S4x512.ShapeCasts S4x1x512) (b : Fin 4) (z : Fin 1) (m : Fin 512) :
    shapeCast S4x1x512 x h (ix3 b z m) = x (ix2 b m) := by
  refine shapeCast_apply x h (ix3 b z m) (ix2 b m) ?_
  rw [Shape.rowMajor_val_two, Shape.rowMajor_val_three]
  show b.val * 512 + m.val = (b.val * 1 + z.val) * 512 + m.val
  have := z.isLt
  omega

/-- A [4,512,1] array broadcast to [4,512,512], at (b, r, m): the entry (b, r, 0). -/
private theorem bcast_col_apply {α : Type} (x : S4x512x1.Idx → α) (h : S4x512x1.Broadcasts S4x512x512) (b : Fin 4) (r m : Fin 512) :
    broadcastTo S4x512x512 x h (ix3 b r m) = x (ix3 b r ⟨0, Nat.one_pos⟩) := by
  refine broadcastTo_apply x h (ix3 b r m) (ix3 b r ⟨0, Nat.one_pos⟩) fun a => ?_
  match a with
  | ⟨0, _⟩ => show b.val = if (4 : Nat) = 1 then 0 else b.val; rw [if_neg (by decide)]
  | ⟨1, _⟩ => show r.val = if (512 : Nat) = 1 then 0 else r.val; rw [if_neg (by decide)]
  | ⟨2, _⟩ => show (0 : Nat) = if (1 : Nat) = 1 then 0 else m.val; rw [if_pos rfl]

/-- A [4,1,512] array broadcast to [4,512,512], at (b, r, m): the entry (b, 0, m). -/
private theorem bcast_row_apply {α : Type} (x : S4x1x512.Idx → α) (h : S4x1x512.Broadcasts S4x512x512) (b : Fin 4) (r m : Fin 512) :
    broadcastTo S4x512x512 x h (ix3 b r m) = x (ix3 b ⟨0, Nat.one_pos⟩ m) := by
  refine broadcastTo_apply x h (ix3 b r m) (ix3 b ⟨0, Nat.one_pos⟩ m) fun a => ?_
  match a with
  | ⟨0, _⟩ => show b.val = if (4 : Nat) = 1 then 0 else b.val; rw [if_neg (by decide)]
  | ⟨1, _⟩ => show (0 : Nat) = if (1 : Nat) = 1 then 0 else r.val; rw [if_pos rfl]
  | ⟨2, _⟩ => show m.val = if (512 : Nat) = 1 then 0 else m.val; rw [if_neg (by decide)]

/-! The operand indices of the batched product at output index i and contraction index c, axis by axis: the left
    operand is read at (i 0, i 1, c), the right operand at (i 0, i 2, c). -/

private theorem lhs_dot_0 (i : S4x512x512.Idx) (c : dot_S4x512x3_S4x512x3_S4x512x512_2_2_1_1_0_0.contr.Idx) :
    (dot_S4x512x3_S4x512x3_S4x512x512_2_2_1_1_0_0.lhsIdx i c 0).val = (i 0).val := by
  unfold DotDims.lhsIdx
  rw [dif_pos (show (0 : Fin S4x512x3.rank) ∈ dot_S4x512x3_S4x512x3_S4x512x512_2_2_1_1_0_0.lhsBatch by decide)]
  rfl
private theorem lhs_dot_1 (i : S4x512x512.Idx) (c : dot_S4x512x3_S4x512x3_S4x512x512_2_2_1_1_0_0.contr.Idx) :
    (dot_S4x512x3_S4x512x3_S4x512x512_2_2_1_1_0_0.lhsIdx i c 1).val = (i 1).val := by
  unfold DotDims.lhsIdx
  rw [dif_neg (show ¬(1 : Fin S4x512x3.rank) ∈ dot_S4x512x3_S4x512x3_S4x512x512_2_2_1_1_0_0.lhsBatch by decide), dif_pos (show (1 : Fin S4x512x3.rank) ∈ dot_S4x512x3_S4x512x3_S4x512x512_2_2_1_1_0_0.lhsNonContracting by decide)]
  rfl
private theorem lhs_dot_2 (i : S4x512x512.Idx) (c : dot_S4x512x3_S4x512x3_S4x512x512_2_2_1_1_0_0.contr.Idx) :
    (dot_S4x512x3_S4x512x3_S4x512x512_2_2_1_1_0_0.lhsIdx i c 2).val = (c ⟨0, by decide⟩).val :=
  dot_S4x512x3_S4x512x3_S4x512x512_2_2_1_1_0_0.lhsIdx_val_of_single rfl i c
private theorem rhs_dot_0 (i : S4x512x512.Idx) (c : dot_S4x512x3_S4x512x3_S4x512x512_2_2_1_1_0_0.contr.Idx) :
    (dot_S4x512x3_S4x512x3_S4x512x512_2_2_1_1_0_0.rhsIdx i c 0).val = (i 0).val := by
  unfold DotDims.rhsIdx
  rw [dif_pos (show (0 : Fin S4x512x3.rank) ∈ dot_S4x512x3_S4x512x3_S4x512x512_2_2_1_1_0_0.rhsBatch by decide)]
  rfl
private theorem rhs_dot_1 (i : S4x512x512.Idx) (c : dot_S4x512x3_S4x512x3_S4x512x512_2_2_1_1_0_0.contr.Idx) :
    (dot_S4x512x3_S4x512x3_S4x512x512_2_2_1_1_0_0.rhsIdx i c 1).val = (i 2).val := by
  unfold DotDims.rhsIdx
  rw [dif_neg (show ¬(1 : Fin S4x512x3.rank) ∈ dot_S4x512x3_S4x512x3_S4x512x512_2_2_1_1_0_0.rhsBatch by decide), dif_pos (show (1 : Fin S4x512x3.rank) ∈ dot_S4x512x3_S4x512x3_S4x512x512_2_2_1_1_0_0.rhsNonContracting by decide)]
  rfl
private theorem rhs_dot_2 (i : S4x512x512.Idx) (c : dot_S4x512x3_S4x512x3_S4x512x512_2_2_1_1_0_0.contr.Idx) :
    (dot_S4x512x3_S4x512x3_S4x512x512_2_2_1_1_0_0.rhsIdx i c 2).val = (c ⟨0, by decide⟩).val :=
  dot_S4x512x3_S4x512x3_S4x512x512_2_2_1_1_0_0.rhsIdx_val_of_single rfl i c

/-- The batched product into the zero accumulator, at (b, r, m): the three-term inner product of row r of q and row m of d. -/
private theorem matmul_entry (q d : FVec Ideal S4x512x3 .f32) (b : Fin 4) (r m : Fin 512) :
    matmul dot_S4x512x3_S4x512x3_S4x512x512_2_2_1_1_0_0 (some .fp32) q d (constant (F := Ideal) S4x512x512 .f32 0x00000000#32) (ix3 b r m)
      = ∑ k : Fin 3, q (ix3 b r k) * d (ix3 b m k) := by
  refine (Ideal.matmul_constant_zero_apply dot_S4x512x3_S4x512x3_S4x512x512_2_2_1_1_0_0 (some .fp32) q d (ix3 b r m)).trans ?_
  rw [← Equiv.sum_comp (ValueIdx.contrEquiv1 dot_S4x512x3_S4x512x3_S4x512x512_2_2_1_1_0_0 3 rfl rfl).symm]
  refine Finset.sum_congr rfl fun k _ => ?_
  have hk := ValueIdx.contrEquiv1_symm_val dot_S4x512x3_S4x512x3_S4x512x512_2_2_1_1_0_0 3 rfl rfl k
  have el : dot_S4x512x3_S4x512x3_S4x512x512_2_2_1_1_0_0.lhsIdx (ix3 b r m) ((ValueIdx.contrEquiv1 dot_S4x512x3_S4x512x3_S4x512x512_2_2_1_1_0_0 3 rfl rfl).symm k) = ix3 b r k := funext fun a => Fin.ext (by
    match a with
    | ⟨0, _⟩ => exact lhs_dot_0 _ _
    | ⟨1, _⟩ => exact lhs_dot_1 _ _
    | ⟨2, _⟩ => exact (lhs_dot_2 _ _).trans hk)
  have er : dot_S4x512x3_S4x512x3_S4x512x512_2_2_1_1_0_0.rhsIdx (ix3 b r m) ((ValueIdx.contrEquiv1 dot_S4x512x3_S4x512x3_S4x512x512_2_2_1_1_0_0 3 rfl rfl).symm k) = ix3 b m k := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-- One entry of the distance table: (|q_r|² + |d_m|²) − 2 ⟨q_r, d_m⟩ clamped below at 0, with each array operation
    read at the entry (b, r, m). -/
private theorem table_entry (q d : FVec Ideal S4x512x3 .f32)
    (hr : S4x512x3.Reduces [2] S4x512) (hφ : FKind.Formats .f32) (hacc : (0x00000000#32 : BitVec 32) = FKind.add.neutral .f32 hφ)
    (hc : S4x512.ShapeCasts S4x512x1) (hw : S4x512.ShapeCasts S4x1x512)
    (hbc : S4x512x1.Broadcasts S4x512x512) (hbw : S4x1x512.Broadcasts S4x512x512) (b : Fin 4) (r m : Fin 512) :
    maximumf (F := Ideal)
      (subf
        (addf
          (broadcastTo S4x512x512 (shapeCast S4x512x1 (multiReduction .add [2] S4x512 (mulf q q) 0x00000000#32 hr hφ hacc) hc) hbc)
          (broadcastTo S4x512x512 (shapeCast S4x1x512 (multiReduction .add [2] S4x512 (mulf d d) 0x00000000#32 hr hφ hacc) hw) hbw))
        (mulf (broadcast S4x512x512 (FloatOps.ofBits .f32 0x40000000#32))
          (matmul dot_S4x512x3_S4x512x3_S4x512x512_2_2_1_1_0_0 (some .fp32) q d (constant S4x512x512 .f32 0x00000000#32))))
      (broadcast S4x512x512 (FloatOps.ofBits .f32 0x00000000#32)) (ix3 b r m)
      = sqd q d b r m := by
  refine (maximumf_apply _ _ (ix3 b r m)).trans ?_
  unfold sqd
  refine congrArg₂ max ?_ Ideal.ofBits_zero_f32
  refine (subf_apply _ _ (ix3 b r m)).trans ?_
  refine congrArg₂ (· - ·) ?_ ?_
  · refine (addf_apply _ _ (ix3 b r m)).trans ?_
    refine congrArg₂ (· + ·) ?_ ?_
    · refine (bcast_col_apply _ _ b r m).trans ?_
      refine (cast_col_apply _ _ b r _).trans ?_
      exact sum_last_apply _ _ _ _ b r
    · refine (bcast_row_apply _ _ b r m).trans ?_
      refine (cast_row_apply _ _ b _ m).trans ?_
      exact sum_last_apply _ _ _ _ b m
  · refine (mulf_apply _ _ (ix3 b r m)).trans ?_
    exact congrArg (two * ·) (matmul_entry q d b r m)

theorem pay1_apply (i : S4x512.Idx) : k0_pay1 (F := Ideal) i = pinf := rfl

theorem pay2_apply (q d : Vec Ideal S4x512x3 .f32) (acc : Vec Ideal S4x512 .f32) (b : Fin 4) (r : Fin 512) :
    k0_pay2 (F := Ideal) q d acc (ix2 b r)
      = min (acc (ix2 b r)) ((Finset.univ : Finset (Fin 512)).fold min pinf (fun m => sqd q d b r m)) := by
  unfold k0_pay2
  refine (minimumf_apply _ _ (ix2 b r)).trans ?_
  rw [shapeCast_self]
  refine congrArg (min (acc (ix2 b r))) ?_
  refine (min_last_apply _ _ _ _ b r).trans ?_
  exact congrArg (fun f => Finset.fold min pinf f Finset.univ) (funext fun m => table_entry q d _ _ _ _ _ _ _ b r m)

end Cert.Chamfer.Payload

end
-- ==== Proof.Region0.lean ====
/-
  ONE REGION of the kernel program: the nearest-neighbour array of a query cloud against a database cloud (which two
  arrays they are, and which array the region writes, is said at Qarr, Darr and final below).

  The grid is (query tiles) × 16: point t = 16·i + j works on query rows 512·i … 512·i + 511 and database rows
  512·j … 512·j + 511, and the output block (all 4 batches, the query rows of tile i) stays in place while j runs. At
  j = 0 the body first stores +∞ and then min's the tile's row minima into it; at j > 0 it min's into what the point
  before left. So after point t the block holds, at (b, r), the minimum from +∞ of the clamped squared distances from
  query row 512·i + r to the database rows below 512·(j + 1) — carried here by its universal property, by induction
  on the point, never by enumerating the grid. The block is written back at j = 15, when that bound is the whole
  database: every entry of the result array is then the row minimum over the whole database, minDist.
-/
import proofs.«167739_j15960098472629_1_alg».proof.Proof.Spec
import proofs.«167739_j15960098472629_1_alg».proof.Proof.Payload
import proofs.«167739_j15960098472629_1_alg».proof.Proof.Gen.KernelIdeal.Frame
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Chamfer.Region0

open Cert.Chamfer Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section AnyValues
variable {F : FTy → Type} [FloatOps F]

/-- At a point with j > 0 the body leaves, over the running block xo, the one stored value: the body's arithmetic of the
    two input blocks and xo (its loads read the whole buffers). -/
theorem out_B (c : Dev nD) (i : grid0.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : ¬cond0_0 i) (x0 x1 : Vec F S4x512x3 .f32) (xo : Vec F S4x512 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread, View.ld_unit_zero (S := S4x512x3) hz3,
    View.ld_unit_zero (S := S4x512) hz2]

/-- At a point with j = 0 the body stores the +∞ block, reads it back, and leaves the same arithmetic over it. -/
theorem out_A (c : Dev nD) (i : grid0.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : cond0_0 i) (x0 x1 : Vec F S4x512x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S4x512) hz2, View.readCov_unit_zero (S := S4x512) _ hz2]
  simp only [View.readAt_eq_ld, h2.read_unread, h3.read_unread, View.ld_unit_zero (S := S4x512x3) hz3,
    View.ld_unit_zero (S := S4x512) hz2]

end AnyValues

/-- The printed index maps, decided once over the grid: the query window follows i = t / 16, the database window
    j = t % 16, the output window i. -/
theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

/-- This region's stored values at an entry (the three regions run one kernel function: the same arithmetic). -/
theorem pay2_at (q d : Vec Ideal S4x512x3 .f32) (acc : Vec Ideal S4x512 .f32) (b : Fin 4) (r : Fin 512) :
    k0_pay2 (F := Ideal) q d acc (ix2 b r)
      = min (acc (ix2 b r)) ((Finset.univ : Finset (Fin 512)).fold min pinf (fun m => sqd q d b r m)) :=
  Payload.pay2_apply q d acc b r
theorem pay1_at (i : S4x512.Idx) : k0_pay1 (F := Ideal) i = pinf := Payload.pay1_apply i

variable (V : (c : Dev nD) → (b : Ref sig .tc) → Buf (Elt Ideal) ((c : Thread nD τ).loc b))

/-- The query cloud (main_arg4) and the database cloud (main_arg3) as the region finds them, and their blocks at a point. -/
abbrev Qarr (c : Dev nD) : Pts 1024 := V c main_arg4
abbrev Darr (c : Dev nD) : Pts 8192 := V c main_arg3
abbrev qblk (c : Dev nD) (t : Fin cfg0.N) : Pts 512 := iblk0 V c 0 t
abbrev dblk (c : Dev nD) (t : Fin cfg0.N) : Pts 512 := iblk0 V c 1 t

/-- The query block at point t is rows 512·(t/16) … of the query cloud. -/
theorem qblk_apply (c : Dev nD) (t : Fin cfg0.N) (b : Fin 4) (r : Fin 512) (k : Fin 3) (row : Fin 1024)
    (hrow : row.val = 512 * (t.val / 16) + r.val) : qblk V c t (ix3 b r k) = Qarr V c (ix3 b row k) := by
  obtain ⟨e0, e1, e2, -⟩ := idx_facts t
  show V c main_arg4 (((cfg0.win 0).blk t).view.emb (ix3 b r k)) = V c main_arg4 (ix3 b row k)
  refine congrArg _ (funext fun a => Fin.ext ?_)
  match a with
  | ⟨0, _⟩ => show win0_0.index t (0 : Fin 3) * 4 + 1 * b.val = b.val; omega
  | ⟨1, _⟩ => show win0_0.index t (1 : Fin 3) * 512 + 1 * r.val = row.val; omega
  | ⟨2, _⟩ => show win0_0.index t (2 : Fin 3) * 3 + 1 * k.val = k.val; omega

/-- The database block at point t is rows 512·(t%16) … of the database cloud. -/
theorem dblk_apply (c : Dev nD) (t : Fin cfg0.N) (b : Fin 4) (m' : Fin 512) (k : Fin 3) (col : Fin 8192)
    (hcol : col.val = 512 * (t.val % 16) + m'.val) : dblk V c t (ix3 b m' k) = Darr V c (ix3 b col k) := by
  obtain ⟨-, -, -, e3, e4, e5, -⟩ := idx_facts t
  show V c main_arg3 (((cfg0.win 1).blk t).view.emb (ix3 b m' k)) = V c main_arg3 (ix3 b col k)
  refine congrArg _ (funext fun a => Fin.ext ?_)
  match a with
  | ⟨0, _⟩ => show win0_1.index t (0 : Fin 3) * 4 + 1 * b.val = b.val; omega
  | ⟨1, _⟩ => show win0_1.index t (1 : Fin 3) * 512 + 1 * m'.val = col.val; omega
  | ⟨2, _⟩ => show win0_1.index t (2 : Fin 3) * 3 + 1 * k.val = k.val; omega

/-- So a distance between the two blocks is the distance between those rows of the two clouds. -/
theorem sqd_blk (c : Dev nD) (t : Fin cfg0.N) (b : Fin 4) (r m' : Fin 512) (row : Fin 1024) (col : Fin 8192)
    (hrow : row.val = 512 * (t.val / 16) + r.val) (hcol : col.val = 512 * (t.val % 16) + m'.val) :
    sqd (qblk V c t) (dblk V c t) b r m' = sqd (Qarr V c) (Darr V c) b row col := by
  unfold sqd
  simp only [qblk_apply V c t b r _ row hrow, dblk_apply V c t b m' _ col hcol]

/-- The tile's row minimum at point t, re-indexed into the database cloud. -/
theorem tile_fun (c : Dev nD) (t : Fin cfg0.N) (b : Fin 4) (r : Fin 512) (row : Fin 1024)
    (hrow : row.val = 512 * (t.val / 16) + r.val) :
    (fun m' : Fin 512 => sqd (qblk V c t) (dblk V c t) b r m')
      = fun m' : Fin 512 => (fun m : Fin 8192 => sqd (Qarr V c) (Darr V c) b row m)
          ⟨512 * (t.val % 16) + m'.val, by have := m'.isLt; have : t.val % 16 < 16 := Nat.mod_lt _ (by decide); omega⟩ :=
  funext fun m' => sqd_blk V c t b r m' row _ hrow rfl

/-- What the running block's entry (b, r) is after point n: the minimum from +∞ over the database rows seen so far. -/
def Seen (c : Dev nD) (n : ℕ) (b : Fin 4) (row : Fin 1024) (x y : EReal) : Prop :=
  x ≤ y ↔ x ≤ pinf ∧ ∀ m : Fin 8192, m.val < 512 * (n % 16 + 1) → x ≤ sqd (Qarr V c) (Darr V c) b row m

/-- A point with j = 0. -/
theorem seen_A (c : Dev nD) (t : Fin cfg0.N) (h0 : t.val % 16 = 0) (b : Fin 4) (r : Fin 512) (row : Fin 1024)
    (hrow : row.val = 512 * (t.val / 16) + r.val) (x : EReal) :
    Seen V c t.val b row x (outsAt0 V c t.val t.isLt (ix2 b r)) := by
  unfold Seen
  rw [outsAt0_A V c t h0, out_A, pay2_at, pay1_at]
  have key := le_min_tile_iff (M := 8192) (fun m => sqd (Qarr V c) (Darr V c) b row m) x pinf (t.val % 16)
    (by have : t.val % 16 < 16 := Nat.mod_lt _ (by decide); omega)
    ⟨fun hp => ⟨hp, fun m hm => absurd hm (by omega)⟩, fun h => h.1⟩
  exact (iff_of_eq (congrArg (fun g => x ≤ min pinf ((Finset.univ : Finset (Fin 512)).fold min pinf g))
    (tile_fun V c t b r row hrow))).trans key

/-- A point with j > 0, over what the point before left. -/
theorem seen_B (c : Dev nD) (t : Fin cfg0.N) (h0 : ¬t.val % 16 = 0) (b : Fin 4) (r : Fin 512) (row : Fin 1024)
    (hrow : row.val = 512 * (t.val / 16) + r.val) (x : EReal)
    (ih : Seen V c (t.val - 1) b row x (outsAt0 V c (t.val - 1) (Nat.lt_of_le_of_lt (Nat.sub_le _ _) t.isLt) (ix2 b r))) :
    Seen V c t.val b row x (outsAt0 V c t.val t.isLt (ix2 b r)) := by
  unfold Seen at ih ⊢
  rw [outsAt0_B V c t h0, out_B, pay2_at]
  have e1 : (t.val - 1) % 16 + 1 = t.val % 16 := by omega
  rw [e1] at ih
  have key := le_min_tile_iff (M := 8192) (fun m => sqd (Qarr V c) (Darr V c) b row m) x
    (outsAt0 V c (t.val - 1) (Nat.lt_of_le_of_lt (Nat.sub_le _ _) t.isLt) (ix2 b r)) (t.val % 16)
    (by have : t.val % 16 < 16 := Nat.mod_lt _ (by decide); omega) ih
  exact (iff_of_eq (congrArg (fun g => x ≤ min (outsAt0 V c (t.val - 1) (Nat.lt_of_le_of_lt (Nat.sub_le _ _) t.isLt) (ix2 b r))
    ((Finset.univ : Finset (Fin 512)).fold min pinf g)) (tile_fun V c t b r row hrow))).trans key

/-- THE INVARIANT, by induction on the point. -/
theorem seen (c : Dev nD) : ∀ (n : ℕ) (h : n < cfg0.N) (b : Fin 4) (r : Fin 512) (row : Fin 1024)
    (hrow : row.val = 512 * (n / 16) + r.val) (x : EReal), Seen V c n b row x (outsAt0 V c n h (ix2 b r))
  | 0, h, b, r, row, hrow, x => seen_A V c ⟨0, h⟩ rfl b r row hrow x
  | n + 1, h, b, r, row, hrow, x => by
    by_cases h0 : (n + 1) % 16 = 0
    · exact seen_A V c ⟨n + 1, h⟩ h0 b r row hrow x
    · refine seen_B V c ⟨n + 1, h⟩ h0 b r row hrow x ?_
      exact seen c n (Nat.lt_of_succ_lt h) b r row (by rw [hrow]; show 512 * ((n + 1) / 16) + r.val = 512 * (n / 16) + r.val; omega) x

/-- WHAT A WRITE-BACK WRITES (j = 15): block i of the whole-database row minimum. -/
theorem flushed_eq (c : Dev nD) (t : Fin cfg0.N) (hf : (cfg0.win 2).flush t = true) :
    (dat0 V c).flushed 2 t = ((cfg0.win 2).blk t).view.read (Elt Ideal) (minDist (Qarr V c) (Darr V c)) := by
  have h15 : t.val % 16 = 15 := (flush0_2 t).mp hf
  have hN : t.val < 32 := lt_of_lt_of_eq t.isLt (show cfg0.N = 32 from N_0)
  obtain ⟨-, -, -, -, -, -, e6, e7⟩ := idx_facts t
  show (cfg0.win 2).cut (grid0.coords t) ((dat0 V c).after 2 t) = _
  rw [after0_2]
  funext j
  obtain ⟨b, r, rfl⟩ : ∃ (b : Fin 4) (r : Fin 512), j = ix2 b r := ⟨j 0, j 1, eq_ix2 j⟩
  have hemb : ((cfg0.win 2).blk t).view.emb (ix2 b r) = ix2 b (⟨512 * (t.val / 16) + r.val, by have := r.isLt; omega⟩ : Fin 1024) :=
    funext fun a => Fin.ext (by
      match a with
      | ⟨0, _⟩ => show win0_2.index t (0 : Fin 2) * 4 + 1 * b.val = b.val; omega
      | ⟨1, _⟩ => show win0_2.index t (1 : Fin 2) * 512 + 1 * r.val = 512 * (t.val / 16) + r.val; omega)
  show outsAt0 V c t.val t.isLt (ix2 b r) = minDist (Qarr V c) (Darr V c) (((cfg0.win 2).blk t).view.emb (ix2 b r))
  rw [hemb]
  refine eq_of_forall_le_iff fun x => ?_
  have hs := seen V c t.val t.isLt b r ⟨512 * (t.val / 16) + r.val, by have := r.isLt; omega⟩ rfl x
  unfold Seen at hs
  rw [hs, le_minDist_iff]
  exact ⟨fun h => ⟨h.1, fun m => h.2 m (by have := m.isLt; omega)⟩, fun h => ⟨h.1, fun m _ => h.2 m⟩⟩

/-- An index of the result array is in point t's block iff each coordinate is in the block's range on its axis. -/
theorem mem_blk (t : Fin cfg0.N) (i : S4x1024.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v0).slice (win0_2.rect t)).set ↔ _
  rw [View.set_slice_whole, Rect.mem_set_unit]
  exact Iff.rfl

/-- THE RESULT ARRAY (main_v0): every row's minimum over the whole database (the write-back at 16·(n/512) + 15 covers
    row n). -/
theorem final (c : Dev nD) : (dat0 V c).arrAt 2 cfg0.N = minDist (Qarr V c) (Darr V c) :=
  (dat0 V c).arrAt_eq_of_cover 2 (minDist (Qarr V c) (Darr V c)) (flushed_eq V c) fun i => by
    have hi0 : (i 0).val < 4 := (i 0).isLt
    have hi1 : (i 1).val < 1024 := (i 1).isLt
    have hN : cfg0.N = 32 := N_0
    refine ⟨⟨16 * ((i 1).val / 512) + 15, by rw [hN]; omega⟩, (flush0_2 _).mpr (by show (16 * ((i 1).val / 512) + 15) % 16 = 15; omega), ?_⟩
    rw [mem_blk]
    obtain ⟨-, -, -, -, -, -, e6, e7⟩ := idx_facts ⟨16 * ((i 1).val / 512) + 15, by rw [hN]; omega⟩
    intro a
    match a with
    | ⟨0, _⟩ => show win0_2.index _ (0 : Fin 2) * 4 ≤ (i 0).val ∧ (i 0).val < win0_2.index _ (0 : Fin 2) * 4 + 4; rw [e6]; omega
    | ⟨1, _⟩ => show win0_2.index _ (1 : Fin 2) * 512 ≤ (i 1).val ∧ (i 1).val < win0_2.index _ (1 : Fin 2) * 512 + 512; rw [e7]; show (16 * ((i 1).val / 512) + 15) / 16 * 512 ≤ (i 1).val ∧ (i 1).val < (16 * ((i 1).val / 512) + 15) / 16 * 512 + 512; omega

end Cert.Chamfer.Region0

end
-- ==== Proof.Region1.lean ====
/-
  ONE REGION of the kernel program: the nearest-neighbour array of a query cloud against a database cloud (which two
  arrays they are, and which array the region writes, is said at Qarr, Darr and final below).

  The grid is (query tiles) × 16: point t = 16·i + j works on query rows 512·i … 512·i + 511 and database rows
  512·j … 512·j + 511, and the output block (all 4 batches, the query rows of tile i) stays in place while j runs. At
  j = 0 the body first stores +∞ and then min's the tile's row minima into it; at j > 0 it min's into what the point
  before left. So after point t the block holds, at (b, r), the minimum from +∞ of the clamped squared distances from
  query row 512·i + r to the database rows below 512·(j + 1) — carried here by its universal property, by induction
  on the point, never by enumerating the grid. The block is written back at j = 15, when that bound is the whole
  database: every entry of the result array is then the row minimum over the whole database, minDist.
-/
import proofs.«167739_j15960098472629_1_alg».proof.Proof.Spec
import proofs.«167739_j15960098472629_1_alg».proof.Proof.Payload
import proofs.«167739_j15960098472629_1_alg».proof.Proof.Gen.KernelIdeal.Frame
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Chamfer.Region1

open Cert.Chamfer Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section AnyValues
variable {F : FTy → Type} [FloatOps F]

/-- At a point with j > 0 the body leaves, over the running block xo, the one stored value: the body's arithmetic of the
    two input blocks and xo (its loads read the whole buffers). -/
theorem out_B (c : Dev nD) (i : grid1.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : ¬cond1_0 i) (x0 x1 : Vec F S4x512x3 .f32) (xo : Vec F S4x512 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz2]
  simp only [View.readAt_eq_ld, h2.read_unread, h3.read_unread, h4.read_unread, View.ld_unit_zero (S := S4x512x3) hz3,
    View.ld_unit_zero (S := S4x512) hz2]

/-- At a point with j = 0 the body stores the +∞ block, reads it back, and leaves the same arithmetic over it. -/
theorem out_A (c : Dev nD) (i : grid1.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : cond1_0 i) (x0 x1 : Vec F S4x512x3 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S4x512) hz2, View.readCov_unit_zero (S := S4x512) _ hz2]
  simp only [View.readAt_eq_ld, h2.read_unread, h3.read_unread, View.ld_unit_zero (S := S4x512x3) hz3,
    View.ld_unit_zero (S := S4x512) hz2]

end AnyValues

/-- The printed index maps, decided once over the grid: the query window follows i = t / 16, the database window
    j = t % 16, the output window i. -/
theorem idx_facts : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N, _)

/-- This region's stored values at an entry (the three regions run one kernel function: the same arithmetic). -/
theorem pay2_at (q d : Vec Ideal S4x512x3 .f32) (acc : Vec Ideal S4x512 .f32) (b : Fin 4) (r : Fin 512) :
    k1_pay2 (F := Ideal) q d acc (ix2 b r)
      = min (acc (ix2 b r)) ((Finset.univ : Finset (Fin 512)).fold min pinf (fun m => sqd q d b r m)) :=
  Payload.pay2_apply q d acc b r
theorem pay1_at (i : S4x512.Idx) : k1_pay1 (F := Ideal) i = pinf := Payload.pay1_apply i

variable (V : (c : Dev nD) → (b : Ref sig .tc) → Buf (Elt Ideal) ((c : Thread nD τ).loc b))

/-- The query cloud (main_arg0) and the database cloud (main_arg3) as the region finds them, and their blocks at a point. -/
abbrev Qarr (c : Dev nD) : Pts 8192 := V c main_arg0
abbrev Darr (c : Dev nD) : Pts 8192 := V c main_arg3
abbrev qblk (c : Dev nD) (t : Fin cfg1.N) : Pts 512 := iblk1 V c 0 t
abbrev dblk (c : Dev nD) (t : Fin cfg1.N) : Pts 512 := iblk1 V c 1 t

/-- The query block at point t is rows 512·(t/16) … of the query cloud. -/
theorem qblk_apply (c : Dev nD) (t : Fin cfg1.N) (b : Fin 4) (r : Fin 512) (k : Fin 3) (row : Fin 8192)
    (hrow : row.val = 512 * (t.val / 16) + r.val) : qblk V c t (ix3 b r k) = Qarr V c (ix3 b row k) := by
  obtain ⟨e0, e1, e2, -⟩ := idx_facts t
  show V c main_arg0 (((cfg1.win 0).blk t).view.emb (ix3 b r k)) = V c main_arg0 (ix3 b row k)
  refine congrArg _ (funext fun a => Fin.ext ?_)
  match a with
  | ⟨0, _⟩ => show win1_0.index t (0 : Fin 3) * 4 + 1 * b.val = b.val; omega
  | ⟨1, _⟩ => show win1_0.index t (1 : Fin 3) * 512 + 1 * r.val = row.val; omega
  | ⟨2, _⟩ => show win1_0.index t (2 : Fin 3) * 3 + 1 * k.val = k.val; omega

/-- The database block at point t is rows 512·(t%16) … of the database cloud. -/
theorem dblk_apply (c : Dev nD) (t : Fin cfg1.N) (b : Fin 4) (m' : Fin 512) (k : Fin 3) (col : Fin 8192)
    (hcol : col.val = 512 * (t.val % 16) + m'.val) : dblk V c t (ix3 b m' k) = Darr V c (ix3 b col k) := by
  obtain ⟨-, -, -, e3, e4, e5, -⟩ := idx_facts t
  show V c main_arg3 (((cfg1.win 1).blk t).view.emb (ix3 b m' k)) = V c main_arg3 (ix3 b col k)
  refine congrArg _ (funext fun a => Fin.ext ?_)
  match a with
  | ⟨0, _⟩ => show win1_1.index t (0 : Fin 3) * 4 + 1 * b.val = b.val; omega
  | ⟨1, _⟩ => show win1_1.index t (1 : Fin 3) * 512 + 1 * m'.val = col.val; omega
  | ⟨2, _⟩ => show win1_1.index t (2 : Fin 3) * 3 + 1 * k.val = k.val; omega

/-- So a distance between the two blocks is the distance between those rows of the two clouds. -/
theorem sqd_blk (c : Dev nD) (t : Fin cfg1.N) (b : Fin 4) (r m' : Fin 512) (row : Fin 8192) (col : Fin 8192)
    (hrow : row.val = 512 * (t.val / 16) + r.val) (hcol : col.val = 512 * (t.val % 16) + m'.val) :
    sqd (qblk V c t) (dblk V c t) b r m' = sqd (Qarr V c) (Darr V c) b row col := by
  unfold sqd
  simp only [qblk_apply V c t b r _ row hrow, dblk_apply V c t b m' _ col hcol]

/-- The tile's row minimum at point t, re-indexed into the database cloud. -/
theorem tile_fun (c : Dev nD) (t : Fin cfg1.N) (b : Fin 4) (r : Fin 512) (row : Fin 8192)
    (hrow : row.val = 512 * (t.val / 16) + r.val) :
    (fun m' : Fin 512 => sqd (qblk V c t) (dblk V c t) b r m')
      = fun m' : Fin 512 => (fun m : Fin 8192 => sqd (Qarr V c) (Darr V c) b row m)
          ⟨512 * (t.val % 16) + m'.val, by have := m'.isLt; have : t.val % 16 < 16 := Nat.mod_lt _ (by decide); omega⟩ :=
  funext fun m' => sqd_blk V c t b r m' row _ hrow rfl

/-- What the running block's entry (b, r) is after point n: the minimum from +∞ over the database rows seen so far. -/
def Seen (c : Dev nD) (n : ℕ) (b : Fin 4) (row : Fin 8192) (x y : EReal) : Prop :=
  x ≤ y ↔ x ≤ pinf ∧ ∀ m : Fin 8192, m.val < 512 * (n % 16 + 1) → x ≤ sqd (Qarr V c) (Darr V c) b row m

/-- A point with j = 0. -/
theorem seen_A (c : Dev nD) (t : Fin cfg1.N) (h0 : t.val % 16 = 0) (b : Fin 4) (r : Fin 512) (row : Fin 8192)
    (hrow : row.val = 512 * (t.val / 16) + r.val) (x : EReal) :
    Seen V c t.val b row x (outsAt1 V c t.val t.isLt (ix2 b r)) := by
  unfold Seen
  rw [outsAt1_A V c t h0, out_A, pay2_at, pay1_at]
  have key := le_min_tile_iff (M := 8192) (fun m => sqd (Qarr V c) (Darr V c) b row m) x pinf (t.val % 16)
    (by have : t.val % 16 < 16 := Nat.mod_lt _ (by decide); omega)
    ⟨fun hp => ⟨hp, fun m hm => absurd hm (by omega)⟩, fun h => h.1⟩
  exact (iff_of_eq (congrArg (fun g => x ≤ min pinf ((Finset.univ : Finset (Fin 512)).fold min pinf g))
    (tile_fun V c t b r row hrow))).trans key

/-- A point with j > 0, over what the point before left. -/
theorem seen_B (c : Dev nD) (t : Fin cfg1.N) (h0 : ¬t.val % 16 = 0) (b : Fin 4) (r : Fin 512) (row : Fin 8192)
    (hrow : row.val = 512 * (t.val / 16) + r.val) (x : EReal)
    (ih : Seen V c (t.val - 1) b row x (outsAt1 V c (t.val - 1) (Nat.lt_of_le_of_lt (Nat.sub_le _ _) t.isLt) (ix2 b r))) :
    Seen V c t.val b row x (outsAt1 V c t.val t.isLt (ix2 b r)) := by
  unfold Seen at ih ⊢
  rw [outsAt1_B V c t h0, out_B, pay2_at]
  have e1 : (t.val - 1) % 16 + 1 = t.val % 16 := by omega
  rw [e1] at ih
  have key := le_min_tile_iff (M := 8192) (fun m => sqd (Qarr V c) (Darr V c) b row m) x
    (outsAt1 V c (t.val - 1) (Nat.lt_of_le_of_lt (Nat.sub_le _ _) t.isLt) (ix2 b r)) (t.val % 16)
    (by have : t.val % 16 < 16 := Nat.mod_lt _ (by decide); omega) ih
  exact (iff_of_eq (congrArg (fun g => x ≤ min (outsAt1 V c (t.val - 1) (Nat.lt_of_le_of_lt (Nat.sub_le _ _) t.isLt) (ix2 b r))
    ((Finset.univ : Finset (Fin 512)).fold min pinf g)) (tile_fun V c t b r row hrow))).trans key

/-- THE INVARIANT, by induction on the point. -/
theorem seen (c : Dev nD) : ∀ (n : ℕ) (h : n < cfg1.N) (b : Fin 4) (r : Fin 512) (row : Fin 8192)
    (hrow : row.val = 512 * (n / 16) + r.val) (x : EReal), Seen V c n b row x (outsAt1 V c n h (ix2 b r))
  | 0, h, b, r, row, hrow, x => seen_A V c ⟨0, h⟩ rfl b r row hrow x
  | n + 1, h, b, r, row, hrow, x => by
    by_cases h0 : (n + 1) % 16 = 0
    · exact seen_A V c ⟨n + 1, h⟩ h0 b r row hrow x
    · refine seen_B V c ⟨n + 1, h⟩ h0 b r row hrow x ?_
      exact seen c n (Nat.lt_of_succ_lt h) b r row (by rw [hrow]; show 512 * ((n + 1) / 16) + r.val = 512 * (n / 16) + r.val; omega) x

/-- WHAT A WRITE-BACK WRITES (j = 15): block i of the whole-database row minimum. -/
theorem flushed_eq (c : Dev nD) (t : Fin cfg1.N) (hf : (cfg1.win 2).flush t = true) :
    (dat1 V c).flushed 2 t = ((cfg1.win 2).blk t).view.read (Elt Ideal) (minDist (Qarr V c) (Darr V c)) := by
  have h15 : t.val % 16 = 15 := (flush1_2 t).mp hf
  have hN : t.val < 256 := lt_of_lt_of_eq t.isLt (show cfg1.N = 256 from N_1)
  obtain ⟨-, -, -, -, -, -, e6, e7⟩ := idx_facts t
  show (cfg1.win 2).cut (grid1.coords t) ((dat1 V c).after 2 t) = _
  rw [after1_2]
  funext j
  obtain ⟨b, r, rfl⟩ : ∃ (b : Fin 4) (r : Fin 512), j = ix2 b r := ⟨j 0, j 1, eq_ix2 j⟩
  have hemb : ((cfg1.win 2).blk t).view.emb (ix2 b r) = ix2 b (⟨512 * (t.val / 16) + r.val, by have := r.isLt; omega⟩ : Fin 8192) :=
    funext fun a => Fin.ext (by
      match a with
      | ⟨0, _⟩ => show win1_2.index t (0 : Fin 2) * 4 + 1 * b.val = b.val; omega
      | ⟨1, _⟩ => show win1_2.index t (1 : Fin 2) * 512 + 1 * r.val = 512 * (t.val / 16) + r.val; omega)
  show outsAt1 V c t.val t.isLt (ix2 b r) = minDist (Qarr V c) (Darr V c) (((cfg1.win 2).blk t).view.emb (ix2 b r))
  rw [hemb]
  refine eq_of_forall_le_iff fun x => ?_
  have hs := seen V c t.val t.isLt b r ⟨512 * (t.val / 16) + r.val, by have := r.isLt; omega⟩ rfl x
  unfold Seen at hs
  rw [hs, le_minDist_iff]
  exact ⟨fun h => ⟨h.1, fun m => h.2 m (by have := m.isLt; omega)⟩, fun h => ⟨h.1, fun m _ => h.2 m⟩⟩

/-- An index of the result array is in point t's block iff each coordinate is in the block's range on its axis. -/
theorem mem_blk (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v9).slice (win1_2.rect t)).set ↔ _
  rw [View.set_slice_whole, Rect.mem_set_unit]
  exact Iff.rfl

/-- THE RESULT ARRAY (main_v9): every row's minimum over the whole database (the write-back at 16·(n/512) + 15 covers
    row n). -/
theorem final (c : Dev nD) : (dat1 V c).arrAt 2 cfg1.N = minDist (Qarr V c) (Darr V c) :=
  (dat1 V c).arrAt_eq_of_cover 2 (minDist (Qarr V c) (Darr V c)) (flushed_eq V c) fun i => by
    have hi0 : (i 0).val < 4 := (i 0).isLt
    have hi1 : (i 1).val < 8192 := (i 1).isLt
    have hN : cfg1.N = 256 := N_1
    refine ⟨⟨16 * ((i 1).val / 512) + 15, by rw [hN]; omega⟩, (flush1_2 _).mpr (by show (16 * ((i 1).val / 512) + 15) % 16 = 15; omega), ?_⟩
    rw [mem_blk]
    obtain ⟨-, -, -, -, -, -, e6, e7⟩ := idx_facts ⟨16 * ((i 1).val / 512) + 15, by rw [hN]; omega⟩
    intro a
    match a with
    | ⟨0, _⟩ => show win1_2.index _ (0 : Fin 2) * 4 ≤ (i 0).val ∧ (i 0).val < win1_2.index _ (0 : Fin 2) * 4 + 4; rw [e6]; omega
    | ⟨1, _⟩ => show win1_2.index _ (1 : Fin 2) * 512 ≤ (i 1).val ∧ (i 1).val < win1_2.index _ (1 : Fin 2) * 512 + 512; rw [e7]; show (16 * ((i 1).val / 512) + 15) / 16 * 512 ≤ (i 1).val ∧ (i 1).val < (16 * ((i 1).val / 512) + 15) / 16 * 512 + 512; omega

end Cert.Chamfer.Region1

end
-- ==== Proof.Region2.lean ====
/-
  ONE REGION of the kernel program: the nearest-neighbour array of a query cloud against a database cloud (which two
  arrays they are, and which array the region writes, is said at Qarr, Darr and final below).

  The grid is (query tiles) × 16: point t = 16·i + j works on query rows 512·i … 512·i + 511 and database rows
  512·j … 512·j + 511, and the output block (all 4 batches, the query rows of tile i) stays in place while j runs. At
  j = 0 the body first stores +∞ and then min's the tile's row minima into it; at j > 0 it min's into what the point
  before left. So after point t the block holds, at (b, r), the minimum from +∞ of the clamped squared distances from
  query row 512·i + r to the database rows below 512·(j + 1) — carried here by its universal property, by induction
  on the point, never by enumerating the grid. The block is written back at j = 15, when that bound is the whole
  database: every entry of the result array is then the row minimum over the whole database, minDist.
-/
import proofs.«167739_j15960098472629_1_alg».proof.Proof.Spec
import proofs.«167739_j15960098472629_1_alg».proof.Proof.Payload
import proofs.«167739_j15960098472629_1_alg».proof.Proof.Gen.KernelIdeal.Frame
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Chamfer.Region2

open Cert.Chamfer Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section AnyValues
variable {F : FTy → Type} [FloatOps F]

/-- At a point with j > 0 the body leaves, over the running block xo, the one stored value: the body's arithmetic of the
    two input blocks and xo (its loads read the whole buffers). -/
theorem out_B (c : Dev nD) (i : grid2.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : ¬cond2_0 i) (x0 x1 : Vec F S4x512x3 .f32) (xo : Vec F S4x512 .f32) :
    out2_B_2 c i a2 h2 a3 h3 a4 h4 hc x0 x1 xo = k2_pay2 x0 x1 xo := by
  unfold out2_B_2
  rw [View.read_writes_eq_canon _ _ _ (cover2_B_2 c i a2 h2 a3 h3 a4 h4 hc x0 x1 xo)]
  unfold kernelRun2_B
  dsimp only
  sl_unfold_words
  rw [View.canon_unit_zero hz2]
  simp only [View.readAt_eq_ld, h2.read_unread, h3.read_unread, h4.read_unread, View.ld_unit_zero (S := S4x512x3) hz3,
    View.ld_unit_zero (S := S4x512) hz2]

/-- At a point with j = 0 the body stores the +∞ block, reads it back, and leaves the same arithmetic over it. -/
theorem out_A (c : Dev nD) (i : grid2.Coords) (a2 : Memref sig .tc .vmem S4x512x3 .f32) (h2 : a2.IsWhole)
    (a3 : Memref sig .tc .vmem S4x512x3 .f32) (h3 : a3.IsWhole) (a4 : Memref sig .tc .vmem S4x512 .f32) (h4 : a4.IsWhole)
    (hc : cond2_0 i) (x0 x1 : Vec F S4x512x3 .f32) :
    out2_A_2 c i a2 h2 a3 h3 a4 h4 hc x0 x1 = k2_pay2 x0 x1 (k2_pay1 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S4x512) hz2, View.readCov_unit_zero (S := S4x512) _ hz2]
  simp only [View.readAt_eq_ld, h2.read_unread, h3.read_unread, View.ld_unit_zero (S := S4x512x3) hz3,
    View.ld_unit_zero (S := S4x512) hz2]

end AnyValues

/-- The printed index maps, decided once over the grid: the query window follows i = t / 16, the database window
    j = t % 16, the output window i. -/
theorem idx_facts : ∀ t : Fin cfg2.N,
    win2_0.index t (0 : Fin 3) = 0 ∧ win2_0.index t (1 : Fin 3) = t.val / 16 ∧ win2_0.index t (2 : Fin 3) = 0
    ∧ win2_1.index t (0 : Fin 3) = 0 ∧ win2_1.index t (1 : Fin 3) = t.val % 16 ∧ win2_1.index t (2 : Fin 3) = 0
    ∧ win2_2.index t (0 : Fin 2) = 0 ∧ win2_2.index t (1 : Fin 2) = t.val / 16 :=
  (by decide +kernel : ∀ t : Fin grid2.N, _)

/-- This region's stored values at an entry (the three regions run one kernel function: the same arithmetic). -/
theorem pay2_at (q d : Vec Ideal S4x512x3 .f32) (acc : Vec Ideal S4x512 .f32) (b : Fin 4) (r : Fin 512) :
    k2_pay2 (F := Ideal) q d acc (ix2 b r)
      = min (acc (ix2 b r)) ((Finset.univ : Finset (Fin 512)).fold min pinf (fun m => sqd q d b r m)) :=
  Payload.pay2_apply q d acc b r
theorem pay1_at (i : S4x512.Idx) : k2_pay1 (F := Ideal) i = pinf := Payload.pay1_apply i

variable (V : (c : Dev nD) → (b : Ref sig .tc) → Buf (Elt Ideal) ((c : Thread nD τ).loc b))

/-- The query cloud (main_arg3) and the database cloud (main_arg0) as the region finds them, and their blocks at a point. -/
abbrev Qarr (c : Dev nD) : Pts 8192 := V c main_arg3
abbrev Darr (c : Dev nD) : Pts 8192 := V c main_arg0
abbrev qblk (c : Dev nD) (t : Fin cfg2.N) : Pts 512 := iblk2 V c 0 t
abbrev dblk (c : Dev nD) (t : Fin cfg2.N) : Pts 512 := iblk2 V c 1 t

/-- The query block at point t is rows 512·(t/16) … of the query cloud. -/
theorem qblk_apply (c : Dev nD) (t : Fin cfg2.N) (b : Fin 4) (r : Fin 512) (k : Fin 3) (row : Fin 8192)
    (hrow : row.val = 512 * (t.val / 16) + r.val) : qblk V c t (ix3 b r k) = Qarr V c (ix3 b row k) := by
  obtain ⟨e0, e1, e2, -⟩ := idx_facts t
  show V c main_arg3 (((cfg2.win 0).blk t).view.emb (ix3 b r k)) = V c main_arg3 (ix3 b row k)
  refine congrArg _ (funext fun a => Fin.ext ?_)
  match a with
  | ⟨0, _⟩ => show win2_0.index t (0 : Fin 3) * 4 + 1 * b.val = b.val; omega
  | ⟨1, _⟩ => show win2_0.index t (1 : Fin 3) * 512 + 1 * r.val = row.val; omega
  | ⟨2, _⟩ => show win2_0.index t (2 : Fin 3) * 3 + 1 * k.val = k.val; omega

/-- The database block at point t is rows 512·(t%16) … of the database cloud. -/
theorem dblk_apply (c : Dev nD) (t : Fin cfg2.N) (b : Fin 4) (m' : Fin 512) (k : Fin 3) (col : Fin 8192)
    (hcol : col.val = 512 * (t.val % 16) + m'.val) : dblk V c t (ix3 b m' k) = Darr V c (ix3 b col k) := by
  obtain ⟨-, -, -, e3, e4, e5, -⟩ := idx_facts t
  show V c main_arg0 (((cfg2.win 1).blk t).view.emb (ix3 b m' k)) = V c main_arg0 (ix3 b col k)
  refine congrArg _ (funext fun a => Fin.ext ?_)
  match a with
  | ⟨0, _⟩ => show win2_1.index t (0 : Fin 3) * 4 + 1 * b.val = b.val; omega
  | ⟨1, _⟩ => show win2_1.index t (1 : Fin 3) * 512 + 1 * m'.val = col.val; omega
  | ⟨2, _⟩ => show win2_1.index t (2 : Fin 3) * 3 + 1 * k.val = k.val; omega

/-- So a distance between the two blocks is the distance between those rows of the two clouds. -/
theorem sqd_blk (c : Dev nD) (t : Fin cfg2.N) (b : Fin 4) (r m' : Fin 512) (row : Fin 8192) (col : Fin 8192)
    (hrow : row.val = 512 * (t.val / 16) + r.val) (hcol : col.val = 512 * (t.val % 16) + m'.val) :
    sqd (qblk V c t) (dblk V c t) b r m' = sqd (Qarr V c) (Darr V c) b row col := by
  unfold sqd
  simp only [qblk_apply V c t b r _ row hrow, dblk_apply V c t b m' _ col hcol]

/-- The tile's row minimum at point t, re-indexed into the database cloud. -/
theorem tile_fun (c : Dev nD) (t : Fin cfg2.N) (b : Fin 4) (r : Fin 512) (row : Fin 8192)
    (hrow : row.val = 512 * (t.val / 16) + r.val) :
    (fun m' : Fin 512 => sqd (qblk V c t) (dblk V c t) b r m')
      = fun m' : Fin 512 => (fun m : Fin 8192 => sqd (Qarr V c) (Darr V c) b row m)
          ⟨512 * (t.val % 16) + m'.val, by have := m'.isLt; have : t.val % 16 < 16 := Nat.mod_lt _ (by decide); omega⟩ :=
  funext fun m' => sqd_blk V c t b r m' row _ hrow rfl

/-- What the running block's entry (b, r) is after point n: the minimum from +∞ over the database rows seen so far. -/
def Seen (c : Dev nD) (n : ℕ) (b : Fin 4) (row : Fin 8192) (x y : EReal) : Prop :=
  x ≤ y ↔ x ≤ pinf ∧ ∀ m : Fin 8192, m.val < 512 * (n % 16 + 1) → x ≤ sqd (Qarr V c) (Darr V c) b row m

/-- A point with j = 0. -/
theorem seen_A (c : Dev nD) (t : Fin cfg2.N) (h0 : t.val % 16 = 0) (b : Fin 4) (r : Fin 512) (row : Fin 8192)
    (hrow : row.val = 512 * (t.val / 16) + r.val) (x : EReal) :
    Seen V c t.val b row x (outsAt2 V c t.val t.isLt (ix2 b r)) := by
  unfold Seen
  rw [outsAt2_A V c t h0, out_A, pay2_at, pay1_at]
  have key := le_min_tile_iff (M := 8192) (fun m => sqd (Qarr V c) (Darr V c) b row m) x pinf (t.val % 16)
    (by have : t.val % 16 < 16 := Nat.mod_lt _ (by decide); omega)
    ⟨fun hp => ⟨hp, fun m hm => absurd hm (by omega)⟩, fun h => h.1⟩
  exact (iff_of_eq (congrArg (fun g => x ≤ min pinf ((Finset.univ : Finset (Fin 512)).fold min pinf g))
    (tile_fun V c t b r row hrow))).trans key

/-- A point with j > 0, over what the point before left. -/
theorem seen_B (c : Dev nD) (t : Fin cfg2.N) (h0 : ¬t.val % 16 = 0) (b : Fin 4) (r : Fin 512) (row : Fin 8192)
    (hrow : row.val = 512 * (t.val / 16) + r.val) (x : EReal)
    (ih : Seen V c (t.val - 1) b row x (outsAt2 V c (t.val - 1) (Nat.lt_of_le_of_lt (Nat.sub_le _ _) t.isLt) (ix2 b r))) :
    Seen V c t.val b row x (outsAt2 V c t.val t.isLt (ix2 b r)) := by
  unfold Seen at ih ⊢
  rw [outsAt2_B V c t h0, out_B, pay2_at]
  have e1 : (t.val - 1) % 16 + 1 = t.val % 16 := by omega
  rw [e1] at ih
  have key := le_min_tile_iff (M := 8192) (fun m => sqd (Qarr V c) (Darr V c) b row m) x
    (outsAt2 V c (t.val - 1) (Nat.lt_of_le_of_lt (Nat.sub_le _ _) t.isLt) (ix2 b r)) (t.val % 16)
    (by have : t.val % 16 < 16 := Nat.mod_lt _ (by decide); omega) ih
  exact (iff_of_eq (congrArg (fun g => x ≤ min (outsAt2 V c (t.val - 1) (Nat.lt_of_le_of_lt (Nat.sub_le _ _) t.isLt) (ix2 b r))
    ((Finset.univ : Finset (Fin 512)).fold min pinf g)) (tile_fun V c t b r row hrow))).trans key

/-- THE INVARIANT, by induction on the point. -/
theorem seen (c : Dev nD) : ∀ (n : ℕ) (h : n < cfg2.N) (b : Fin 4) (r : Fin 512) (row : Fin 8192)
    (hrow : row.val = 512 * (n / 16) + r.val) (x : EReal), Seen V c n b row x (outsAt2 V c n h (ix2 b r))
  | 0, h, b, r, row, hrow, x => seen_A V c ⟨0, h⟩ rfl b r row hrow x
  | n + 1, h, b, r, row, hrow, x => by
    by_cases h0 : (n + 1) % 16 = 0
    · exact seen_A V c ⟨n + 1, h⟩ h0 b r row hrow x
    · refine seen_B V c ⟨n + 1, h⟩ h0 b r row hrow x ?_
      exact seen c n (Nat.lt_of_succ_lt h) b r row (by rw [hrow]; show 512 * ((n + 1) / 16) + r.val = 512 * (n / 16) + r.val; omega) x

/-- WHAT A WRITE-BACK WRITES (j = 15): block i of the whole-database row minimum. -/
theorem flushed_eq (c : Dev nD) (t : Fin cfg2.N) (hf : (cfg2.win 2).flush t = true) :
    (dat2 V c).flushed 2 t = ((cfg2.win 2).blk t).view.read (Elt Ideal) (minDist (Qarr V c) (Darr V c)) := by
  have h15 : t.val % 16 = 15 := (flush2_2 t).mp hf
  have hN : t.val < 256 := lt_of_lt_of_eq t.isLt (show cfg2.N = 256 from N_2)
  obtain ⟨-, -, -, -, -, -, e6, e7⟩ := idx_facts t
  show (cfg2.win 2).cut (grid2.coords t) ((dat2 V c).after 2 t) = _
  rw [after2_2]
  funext j
  obtain ⟨b, r, rfl⟩ : ∃ (b : Fin 4) (r : Fin 512), j = ix2 b r := ⟨j 0, j 1, eq_ix2 j⟩
  have hemb : ((cfg2.win 2).blk t).view.emb (ix2 b r) = ix2 b (⟨512 * (t.val / 16) + r.val, by have := r.isLt; omega⟩ : Fin 8192) :=
    funext fun a => Fin.ext (by
      match a with
      | ⟨0, _⟩ => show win2_2.index t (0 : Fin 2) * 4 + 1 * b.val = b.val; omega
      | ⟨1, _⟩ => show win2_2.index t (1 : Fin 2) * 512 + 1 * r.val = 512 * (t.val / 16) + r.val; omega)
  show outsAt2 V c t.val t.isLt (ix2 b r) = minDist (Qarr V c) (Darr V c) (((cfg2.win 2).blk t).view.emb (ix2 b r))
  rw [hemb]
  refine eq_of_forall_le_iff fun x => ?_
  have hs := seen V c t.val t.isLt b r ⟨512 * (t.val / 16) + r.val, by have := r.isLt; omega⟩ rfl x
  unfold Seen at hs
  rw [hs, le_minDist_iff]
  exact ⟨fun h => ⟨h.1, fun m => h.2 m (by have := m.isLt; omega)⟩, fun h => ⟨h.1, fun m _ => h.2 m⟩⟩

/-- An index of the result array is in point t's block iff each coordinate is in the block's range on its axis. -/
theorem mem_blk (t : Fin cfg2.N) (i : S4x8192.Idx) :
    i ∈ ((cfg2.win 2).blk t).view.set ↔ ∀ a : Fin 2, win2_2.index t a * S4x512.size a ≤ (i a).val ∧ (i a).val < win2_2.index t a * S4x512.size a + S4x512.size a := by
  show i ∈ ((View.whole main_v10).slice (win2_2.rect t)).set ↔ _
  rw [View.set_slice_whole, Rect.mem_set_unit]
  exact Iff.rfl

/-- THE RESULT ARRAY (main_v10): every row's minimum over the whole database (the write-back at 16·(n/512) + 15 covers
    row n). -/
theorem final (c : Dev nD) : (dat2 V c).arrAt 2 cfg2.N = minDist (Qarr V c) (Darr V c) :=
  (dat2 V c).arrAt_eq_of_cover 2 (minDist (Qarr V c) (Darr V c)) (flushed_eq V c) fun i => by
    have hi0 : (i 0).val < 4 := (i 0).isLt
    have hi1 : (i 1).val < 8192 := (i 1).isLt
    have hN : cfg2.N = 256 := N_2
    refine ⟨⟨16 * ((i 1).val / 512) + 15, by rw [hN]; omega⟩, (flush2_2 _).mpr (by show (16 * ((i 1).val / 512) + 15) % 16 = 15; omega), ?_⟩
    rw [mem_blk]
    obtain ⟨-, -, -, -, -, -, e6, e7⟩ := idx_facts ⟨16 * ((i 1).val / 512) + 15, by rw [hN]; omega⟩
    intro a
    match a with
    | ⟨0, _⟩ => show win2_2.index _ (0 : Fin 2) * 4 ≤ (i 0).val ∧ (i 0).val < win2_2.index _ (0 : Fin 2) * 4 + 4; rw [e6]; omega
    | ⟨1, _⟩ => show win2_2.index _ (1 : Fin 2) * 512 ≤ (i 1).val ∧ (i 1).val < win2_2.index _ (1 : Fin 2) * 512 + 512; rw [e7]; show (16 * ((i 1).val / 512) + 15) / 16 * 512 ≤ (i 1).val ∧ (i 1).val < (16 * ((i 1).val / 512) + 15) / 16 * 512 + 512; omega

end Cert.Chamfer.Region2

end
-- ==== Proof.KernelValue.lean ====
/-
  WHAT THE KERNEL PROGRAM RETURNS, as a function of its arguments, at the ideal values.

  The run's boundary contents are a fold through @main: region 0 leaves its result array at the radar points' nearest
  ground-truth distances (Region0.final), the first stretch of host operations turns that into the confidence term, regions
  1 and 2 leave the two directions of the Chamfer distances (Region1.final, Region2.final), and the last stretch combines
  them. No region and no host operation writes an argument array, so every region finds the clouds as launched; reading the
  fold back at the result buffer gives lossOf of the three nearest-neighbour arrays and the confidences.
-/
import proofs.«167739_j15960098472629_1_alg».proof.Proof.Spec
import proofs.«167739_j15960098472629_1_alg».proof.Proof.Region0
import proofs.«167739_j15960098472629_1_alg».proof.Proof.Region1
import proofs.«167739_j15960098472629_1_alg».proof.Proof.Region2
import proofs.«167739_j15960098472629_1_alg».proof.Proof.Gen.KernelIdeal.Frame
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Chamfer.KernelValue

open Cert.Chamfer Cert.KernelIdeal Cert.KernelIdeal.Gen

variable (m : (ℓ : Loc nD τ sig) → Buf (Elt Ideal) ℓ) (ρ : Dev nD → PrngReg)

/-- The argument arrays as launched: the upsampled cloud, the confidences, the ground truth, the radar cloud. -/
abbrev up (c : Dev nD) : Pts 8192 := m ((c : Thread nD τ).loc main_arg0)
abbrev conf (c : Dev nD) : (⟨3, ![4, 1024, 1]⟩ : Shape).Idx → EReal := m ((c : Thread nD τ).loc main_arg2)
abbrev gt (c : Dev nD) : Pts 8192 := m ((c : Thread nD τ).loc main_arg3)
abbrev rad (c : Dev nD) : Pts 1024 := m ((c : Thread nD τ).loc main_arg4)

/-! ## Every region finds the clouds as launched -/

theorem V2_arg0 (c : Dev nD) : V2 m ρ c main_arg0 = up m c :=
  calc W2 m ρ c (Proc.devRef .tc main_arg0)
    _ = W1 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := W1_of_ne m ρ c main_arg0 (by decide)
    _ = m ((c : Thread nD τ).loc main_arg0) := rfl

theorem V2_arg3 (c : Dev nD) : V2 m ρ c main_arg3 = gt m c :=
  calc W2 m ρ c (Proc.devRef .tc main_arg3)
    _ = W1 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

theorem V3_arg0 (c : Dev nD) : V3 m ρ c main_arg0 = up m c :=
  ((W3_arr m ρ c 0).trans (((dat1 (V2 m ρ) c).arrAt_in 0 rfl _).trans (A_eq1 (V2 m ρ) c 0))).trans (V2_arg0 m ρ c)

theorem V3_arg3 (c : Dev nD) : V3 m ρ c main_arg3 = gt m c :=
  ((W3_arr m ρ c 1).trans (((dat1 (V2 m ρ) c).arrAt_in 1 rfl _).trans (A_eq1 (V2 m ρ) c 1))).trans (V2_arg3 m ρ c)

/-! ## The three nearest-neighbour arrays -/

/-- Region 0's result array: radar points against the ground truth. -/
theorem arrA (c : Dev nD) : W1 m ρ c (Proc.devRef .tc main_v0) = minDist (rad m c) (gt m c) :=
  (W1_arr m ρ c 2).trans (Region0.final (V0 m ρ) c)

/-- Region 1's result array, as the last stretch finds it: the upsampled cloud against the ground truth. -/
theorem arrB (c : Dev nD) : W4 m ρ c (Proc.devRef .tc main_v9) = minDist (up m c) (gt m c) :=
  calc W4 m ρ c (Proc.devRef .tc main_v9)
    _ = W3 m ρ c (Proc.devRef .tc main_v9) := W4_of_ne m ρ c main_v9 (by decide)
    _ = (dat1 (V2 m ρ) c).arrAt 2 cfg1.N := W3_arr m ρ c 2
    _ = minDist (V2 m ρ c main_arg0) (V2 m ρ c main_arg3) := Region1.final (V2 m ρ) c
    _ = minDist (up m c) (gt m c) := by rw [V2_arg0, V2_arg3]

/-- Region 2's result array: the ground truth against the upsampled cloud. -/
theorem arrC (c : Dev nD) : W4 m ρ c (Proc.devRef .tc main_v10) = minDist (gt m c) (up m c) :=
  calc W4 m ρ c (Proc.devRef .tc main_v10)
    _ = (dat2 (V3 m ρ) c).arrAt 2 cfg2.N := W4_arr m ρ c 2
    _ = minDist (V3 m ρ c main_arg3) (V3 m ρ c main_arg0) := Region2.final (V3 m ρ) c
    _ = minDist (gt m c) (up m c) := by rw [V3_arg3, V3_arg0]

/-- The confidence term the first stretch computes from region 0's array, as the last stretch finds it. -/
theorem confTerm (c : Dev nD) : W4 m ρ c (Proc.devRef .tc main_v8)
    = Host.divf (F := Ideal)
        (Host.reduceAdd (F := Ideal)
          (mulf (F := Ideal)
            (subf (F := Ideal) (conf m c) (broadcastInDim S4x1024x1 ![0, 1] bcast_S4x1024_S4x1024x1_0_1
              (Host.exp (F := Ideal) (Host.negf (F := Ideal) (Host.sqrt (F := Ideal) (minDist (rad m c) (gt m c)))))))
            (subf (F := Ideal) (conf m c) (broadcastInDim S4x1024x1 ![0, 1] bcast_S4x1024_S4x1024x1_0_1
              (Host.exp (F := Ideal) (Host.negf (F := Ideal) (Host.sqrt (F := Ideal) (minDist (rad m c) (gt m c))))))))
          (constant (F := Ideal) S_ .f32 0x00000000#32) reducesTo_S4x1024x1_S_d0_1_2 h_S_)
        (constant (F := Ideal) S_ .f32 0x45800000#32) := by
  have e1 : W4 m ρ c (Proc.devRef .tc main_v8) = W2 m ρ c (Proc.devRef .tc main_v8) :=
    (W4_of_ne m ρ c main_v8 (by decide)).trans (W3_of_ne m ρ c main_v8 (by decide))
  rw [e1]
  show StableHlo.after hostOps1 (W1 m ρ c) (Proc.devRef .tc main_v8) = _
  after_results
  rw [arrA m ρ c, show W1 m ρ c (Proc.devRef .tc main_arg2) = conf m c from W1_of_ne m ρ c main_arg2 (by decide)]

/-! ## The result -/

/-- The scalar the kernel program returns, as a function of the launch memory's argument arrays. -/
abbrev loss (c : Dev nD) : Buf (Elt Ideal) ((c : Thread nD τ).loc main_v24) :=
  lossOf bcast_S4x1024_S4x1024x1_0_1 reducesTo_S4x1024x1_S_d0_1_2 reducesTo_S4x8192_S_d0_1 h_S_
    (minDist (rad m c) (gt m c)) (minDist (up m c) (gt m c)) (minDist (gt m c) (up m c)) (conf m c)

set_option maxHeartbeats 8000000 in
/-- THE RESULT BUFFER after the run: lossOf of the three arrays and the confidences. -/
theorem value (c : Dev nD) : W5 m ρ c (Proc.devRef .tc main_v24) = loss m c := by
  show StableHlo.after hostOps3 (W4 m ρ c) (Proc.devRef .tc main_v24) = _
  after_results
  rw [arrB m ρ c, arrC m ρ c, confTerm m ρ c]
  rfl

end Cert.Chamfer.KernelValue

end
-- ==== Proof.RefRead.lean ====
/-
  The reference's three nearest-neighbour arrays and its result, in the specification's words.
-/
import proofs.«167739_j15960098472629_1_alg».proof.Proof.Spec
import proofs.«167739_j15960098472629_1_alg».proof.Proof.Gen.ReferenceIdeal.Read
import Idealize.ShloMosaic.PureOps.Ideal.Laws

noncomputable section

open scoped BigOperators
open Idealize.ShloMosaic Idealize.ShloMosaic.ValueIdx

namespace Cert.Chamfer.Ref

open Cert.Chamfer Cert.ReferenceIdeal Cert.ReferenceIdeal.Read Cert.ReferenceIdeal.Facts₀

/-- The universal property of a minimum folded over all of `Fin n`, with the fold written with the ideal
    values' `minimumf` (which is `min`). -/
private theorem le_fold_minimumf_iff {n : Nat} (c : EReal) (g : Fin n → EReal) (x : EReal) :
    x ≤ (Finset.univ : Finset (Fin n)).fold (FloatOps.minimumf (F := Ideal) (φ := .f32)) c g
      ↔ x ≤ c ∧ ∀ m : Fin n, x ≤ g m := by
  show x ≤ (Finset.univ : Finset (Fin n)).fold min c g ↔ _
  rw [Finset.le_fold_min]
  exact ⟨fun h => ⟨h.1, fun m => h.2 m (Finset.mem_univ _)⟩, fun h => ⟨h.1, fun m _ => h.2 m⟩⟩

/-- Entry (b, n, m) of the [4, 1024, 8192] table of clamped squared distances. -/
private theorem v14_at (x3 : Vec Ideal S4x8192x3 .f32) (x4 : Vec Ideal S4x1024x3 .f32)
    (b : Fin 4) (n : Fin 1024) (m : Fin 8192) :
    val_main_v14 (F := Ideal) x3 x4 (ix3 b n m) = sqd x4 x3 b n m := by
  rw [val_main_v14_apply, val_main_v12_apply, val_main_v9_apply, val_main_v7_apply, val_main_v2_apply,
    val_main_v1_apply, val_main_v8_apply, val_main_v5_apply, val_main_v4_apply, val_main_v13_apply,
    val_main_cst_2_apply, val_main_v11_apply, val_main_v10_apply, val_main_cst_1_apply, val_main_v6_apply,
    val_main_cst_apply, val_main_cst_0_apply]
  have e1 : ∀ k : Fin 3, idx_main_v1 (idx_main_v2 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v4 (idx_main_v5 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v6 (ix3 b n m) k = ix3 b n k := fun k =>
    funext fun a => Fin.ext (by match a with | ⟨0, _⟩ => rfl | ⟨1, _⟩ => rfl | ⟨2, _⟩ => rfl)
  have e4 : ∀ k : Fin 3, ridx_main_v6 (ix3 b n m) k = ix3 b m k := fun k =>
    funext fun a => Fin.ext (by match a with | ⟨0, _⟩ => rfl | ⟨1, _⟩ => rfl | ⟨2, _⟩ => rfl)
  simp only [e1, e2, e3, e4, val_main_v0_apply, val_main_v3_apply, Ideal.maximumf_def, Ideal.subf_def,
    Ideal.addf_def, Ideal.mulf_def, Ideal.ofBits_def, Ideal.ofBits_zero_f32, zero_add]
  rfl

/-- Entry (b, n, m) of the [4, 8192, 8192] table of clamped squared distances. -/
private theorem v38_at (x0 x3 : Vec Ideal S4x8192x3 .f32) (b : Fin 4) (n : Fin 8192) (m : Fin 8192) :
    val_main_v38 (F := Ideal) x0 x3 (ix3 b n m) = sqd x0 x3 b n m := by
  rw [val_main_v38_apply, val_main_v36_apply, val_main_v33_apply, val_main_v31_apply, val_main_v26_apply,
    val_main_v25_apply, val_main_v32_apply, val_main_v29_apply, val_main_v28_apply, val_main_v37_apply,
    val_main_cst_9_apply, val_main_v35_apply, val_main_v34_apply, val_main_cst_8_apply, val_main_v30_apply,
    val_main_cst_6_apply, val_main_cst_7_apply]
  have e1 : ∀ k : Fin 3, idx_main_v25 (idx_main_v26 (idx_main_v31 (ix3 b n m))) k = ix3 b n k := fun k =>
    funext fun a => Fin.ext (by match a with | ⟨0, _⟩ => rfl | ⟨1, _⟩ => rfl | ⟨2, _⟩ => rfl)
  have e2 : ∀ k : Fin 3, idx_main_v28 (idx_main_v29 (idx_main_v32 (ix3 b n m))) k = ix3 b m k := fun k =>
    funext fun a => Fin.ext (by match a with | ⟨0, _⟩ => rfl | ⟨1, _⟩ => rfl | ⟨2, _⟩ => rfl)
  have e3 : ∀ k : Fin 3, lidx_main_v30 (ix3 b n m) k = ix3 b n k := fun k =>
    funext fun a => Fin.ext (by match a with | ⟨0, _⟩ => rfl | ⟨1, _⟩ => rfl | ⟨2, _⟩ => rfl)
  have e4 : ∀ k : Fin 3, ridx_main_v30 (ix3 b n m) k = ix3 b m k := fun k =>
    funext fun a => Fin.ext (by match a with | ⟨0, _⟩ => rfl | ⟨1, _⟩ => rfl | ⟨2, _⟩ => rfl)
  simp only [e1, e2, e3, e4, val_main_v24_apply, val_main_v27_apply, Ideal.maximumf_def, Ideal.subf_def,
    Ideal.addf_def, Ideal.mulf_def, Ideal.ofBits_def, Ideal.ofBits_zero_f32, zero_add]
  rfl

theorem refA (x3 : Vec Ideal S4x8192x3 .f32) (x4 : Vec Ideal S4x1024x3 .f32) :
    val_main_v15 (F := Ideal) x3 x4 = minDist x4 x3 := by
  refine rows_ext_of_le_iff (N := 1024) _ _ fun i x => ?_
  rw [le_minDist_iff]
  obtain ⟨b, n, rfl⟩ : ∃ (b : Fin 4) (n : Fin 1024), i = ix2 b n := ⟨i 0, i 1, eq_ix2 i⟩
  have h : Shape.Reduces S4x1024x8192 [2] S4x1024 := by decide
  unfold val_main_v15
  rw [Host.reduce_eq_fold_single _ _ _ reducesTo_S4x1024x8192_S4x1024_d2 h h_S_, le_fold_minimumf_iff]
  refine and_congr Iff.rfl (forall_congr' fun (m : Fin 8192) => ?_)
  have el : h.lift (ix2 b n) m = ix3 b n m :=
    funext fun a => Fin.ext (by match a with | ⟨0, _⟩ => rfl | ⟨1, _⟩ => rfl | ⟨2, _⟩ => rfl)
  show x ≤ val_main_v14 (F := Ideal) x3 x4 (h.lift (ix2 b n) m) ↔ x ≤ sqd x4 x3 b n m
  rw [el, v14_at]

theorem refB (x0 x3 : Vec Ideal S4x8192x3 .f32) :
    val_main_v39 (F := Ideal) x0 x3 = minDist x0 x3 := by
  refine rows_ext_of_le_iff (N := 8192) _ _ fun i x => ?_
  rw [le_minDist_iff]
  obtain ⟨b, n, rfl⟩ : ∃ (b : Fin 4) (n : Fin 8192), i = ix2 b n := ⟨i 0, i 1, eq_ix2 i⟩
  have h : Shape.Reduces S4x8192x8192 [2] S4x8192 := by decide
  unfold val_main_v39
  rw [Host.reduce_eq_fold_single _ _ _ reducesTo_S4x8192x8192_S4x8192_d2 h h_S_, le_fold_minimumf_iff]
  refine and_congr Iff.rfl (forall_congr' fun (m : Fin 8192) => ?_)
  have el : h.lift (ix2 b n) m = ix3 b n m :=
    funext fun a => Fin.ext (by match a with | ⟨0, _⟩ => rfl | ⟨1, _⟩ => rfl | ⟨2, _⟩ => rfl)
  show x ≤ val_main_v38 (F := Ideal) x0 x3 (h.lift (ix2 b n) m) ↔ x ≤ sqd x0 x3 b n m
  rw [el, v38_at]

theorem refC (x0 x3 : Vec Ideal S4x8192x3 .f32) :
    val_main_v40 (F := Ideal) x0 x3 = minDist x3 x0 := by
  refine rows_ext_of_le_iff (N := 8192) _ _ fun i x => ?_
  rw [le_minDist_swap_iff x0 x3]
  obtain ⟨b, m, rfl⟩ : ∃ (b : Fin 4) (m : Fin 8192), i = ix2 b m := ⟨i 0, i 1, eq_ix2 i⟩
  have h : Shape.Reduces S4x8192x8192 [1] S4x8192 := by decide
  unfold val_main_v40
  rw [Host.reduce_eq_fold_single _ _ _ reducesTo_S4x8192x8192_S4x8192_d1 h h_S_, le_fold_minimumf_iff]
  refine and_congr Iff.rfl (forall_congr' fun (n : Fin 8192) => ?_)
  have el : h.lift (ix2 b m) n = ix3 b n m :=
    funext fun a => Fin.ext (by match a with | ⟨0, _⟩ => rfl | ⟨1, _⟩ => rfl | ⟨2, _⟩ => rfl)
  show x ≤ val_main_v38 (F := Ideal) x0 x3 (h.lift (ix2 b m) n) ↔ x ≤ sqd x0 x3 b n m
  rw [el, v38_at]

theorem result_eq (x0 : Vec Ideal S4x8192x3 .f32) (x2 : Vec Ideal S4x1024x1 .f32) (x3 : Vec Ideal S4x8192x3 .f32)
    (x4 : Vec Ideal S4x1024x3 .f32) :
    val_main_v54 (F := Ideal) x0 x2 x3 x4
      = lossOf bcast_S4x1024_S4x1024x1_0_1 reducesTo_S4x1024x1_S_d0_1_2 reducesTo_S4x8192_S_d0_1 h_S_
          (minDist x4 x3) (minDist x0 x3) (minDist x3 x0) x2 := by
  rw [← refA x3 x4, ← refB x0 x3, ← refC x0 x3]
  rfl

end Cert.Chamfer.Ref

end
-- ==== Proof.lean ====
/-
  The certificate of a Chamfer-style point-cloud loss: a tiled kernel program against its plain reference.

  Both programs take four point clouds and a confidence array and return one scalar,
      ½ · (½ · mean B + 2 · mean C) + ½ · mean ((conf − exp (−√A))²) + mean √B,
  where A, B, C are nearest-neighbour arrays of clamped squared distances max (|q|² + |d|² − 2⟨q, d⟩, 0):
  A from the radar cloud to the ground truth, B from the upsampled cloud to the ground truth, C from the ground truth to
  the upsampled cloud. The reference builds each full distance table and reduces it with one minimum (for C over the
  OTHER axis of B's table); the kernel program never builds a table: three launches of one kernel walk a grid of
  512 × 512 tiles and keep a running minimum in the output block, and C is a launch of its own with the two clouds'
  roles exchanged. Over the extended reals the two agree entry by entry, and the only laws used are that min is the meet
  of a linear order (a running minimum over tiles is the minimum over everything seen, Spec.lean le_min_tile_iff) and
  that + and · commute (the distance is symmetric, Spec.lean sqd_swap); finiteness of the inputs is never needed, and
  the host operations after the nearest-neighbour arrays are the same on both sides (Spec.lean lossOf), so they are
  never opened.

  The pieces: Spec.lean (the mathematics, no program), Payload.lean (the kernel body's arithmetic at one entry),
  Region0/1/2.lean (each launch's result array is minDist of its two clouds: the invariant of the running block by
  induction on the grid point), KernelRun.lean and KernelValue.lean (the kernel program's run with its result buffer
  named, and that buffer read back as lossOf of the three arrays), RefRead.lean (the reference's three minima and its
  result in the same words). The three frames are the generated frame proofs and the reference's generated run; the
  statement's preservation conjunct is True (Defs.lean: the ideal pass's ledger is empty, the idealized program being the
  printed program's own text read at the ideal values), so there is nothing to prove for it.
-/
import proofs.«167739_j15960098472629_1_alg».proof.Defs
import proofs.«167739_j15960098472629_1_alg».proof.Proof.Gen.Kernel
import proofs.«167739_j15960098472629_1_alg».proof.Proof.Gen.Kernel.Skeleton
import proofs.«167739_j15960098472629_1_alg».proof.Proof.Gen.Kernel.Launch
import proofs.«167739_j15960098472629_1_alg».proof.Proof.Gen.Kernel.Points
import proofs.«167739_j15960098472629_1_alg».proof.Proof.Gen.Kernel.Frame
import proofs.«167739_j15960098472629_1_alg».proof.Proof.Gen.KernelIdeal
import proofs.«167739_j15960098472629_1_alg».proof.Proof.Gen.KernelIdeal.Skeleton
import proofs.«167739_j15960098472629_1_alg».proof.Proof.Gen.KernelIdeal.Launch
import proofs.«167739_j15960098472629_1_alg».proof.Proof.Gen.KernelIdeal.Points
import proofs.«167739_j15960098472629_1_alg».proof.Proof.Gen.KernelIdeal.Frame
import proofs.«167739_j15960098472629_1_alg».proof.Proof.Gen.ReferenceIdeal
import proofs.«167739_j15960098472629_1_alg».proof.Proof.Gen.Pre_finite_inputs
import proofs.«167739_j15960098472629_1_alg».proof.Proof.Gen.ReferenceIdeal.Run
import proofs.«167739_j15960098472629_1_alg».proof.Proof.Gen.ReferenceIdeal.Read
import proofs.«167739_j15960098472629_1_alg».proof.Proof.Spec
import proofs.«167739_j15960098472629_1_alg».proof.Proof.KernelRun
import proofs.«167739_j15960098472629_1_alg».proof.Proof.KernelValue
import proofs.«167739_j15960098472629_1_alg».proof.Proof.RefRead
import Idealize.ShloMosaic.Adequacy
import Idealize.ShloMosaic.Init

noncomputable section

namespace Cert.Proof

open Idealize.ShloMosaic Idealize.SL.Sem Cert.Chamfer

/-- The word-level kernel program runs and keeps its arguments: the generated frame. -/
theorem frame_kernel : Cert.frame_Kernel := fun m ρ _ => Cert.Kernel.Gen.frame m ρ

/-- So does the program read at the ideal values. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values both programs, run from memories that agree on the arguments, end with the same scalar: the
    kernel program's result buffer holds lossOf of its three nearest-neighbour arrays (KernelValue.value over the run of
    KernelRun.run), the reference's result is the same lossOf of the same three arrays (RefRead.result_eq), and the
    arguments agree. -/
theorem algebraic : Cert.algebraic_KernelIdeal_ReferenceIdeal := by
  intro m ρ m' ρ' _ hagree
  refine ⟨fun c => KernelValue.loss m c, ?_, ?_⟩
  · exact (θ_run Cert.KernelIdeal.defs _ _).mono
      (fun _ h c => ⟨(h c).1.trans (KernelValue.value m ρ c), (h c).2⟩) (KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq, Ref.result_eq, (hagree c).1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
